-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_v42) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part2 {F : FTy → Type} [FloatOps F] (main_arg7 : FVec F S2048x2048 .f32) (main_arg8 : FVec F S2048x2048 .f32) (main_arg9 : FVec F S2048x512 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  main_v48

def fn_part1 {F : FTy → Type} [FloatOps F] (main_arg4 : FVec F S1024x512 .f32) (main_arg5 : FVec F S1024x2048 .f32) (main_arg6 : FVec F S1024x2048 .f32) (main_arg7 : FVec F S2048x2048 .f32) (main_arg8 : FVec F S2048x2048 .f32) (main_arg9 : FVec F S2048x512 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x2048 .f32) (main_arg1 : FVec F S1024x2048 .f32) (main_arg2 : FVec F S1024x2048 .f32) (main_arg3 : FVec F S1024x2048 .f32) (main_arg4 : FVec F S1024x512 .f32) (main_arg5 : FVec F S1024x2048 .f32) (main_arg6 : FVec F S1024x2048 .f32) (main_arg7 : FVec F S2048x2048 .f32) (main_arg8 : FVec F S2048x2048 .f32) (main_arg9 : FVec F S2048x512 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S64x2048 : Shape := ⟨2, ![64, 2048]⟩
abbrev S64x512 : Shape := ⟨2, ![64, 512]⟩

abbrev nBuf : Space → Nat
  | .hbm => 20
  | .vmem => 31
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x512, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S2048x2048, .bf16⟩
  | .hbm, ⟨11, _⟩ => ⟨S2048x2048, .bf16⟩
  | .hbm, ⟨12, _⟩ => ⟨S2048x512, .bf16⟩
  | .hbm, ⟨13, _⟩ => ⟨S1024x512, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x512, .f32⟩
  | .local _ .vmem, ⟨9, _⟩ => ⟨S64x512, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S2048x2048, .bf16⟩
  | .local _ .vmem, ⟨15, _⟩ => ⟨S2048x2048, .bf16⟩
  | .local _ .vmem, ⟨16, _⟩ => ⟨S2048x512, .bf16⟩
  | .local _ .vmem, ⟨17, _⟩ => ⟨S64x512, .f32⟩
  | .local _ .vmem, ⟨18, _⟩ => ⟨S64x512, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S64x2048, .f32⟩
  | .local _ .vmem, ⟨29, _⟩ => ⟨S64x2048, .f32⟩
  | .local _ .vmem, ⟨30, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S64x512_S64x512_0_0 : ∀ a, (![0, 0] : Fin 2 → Nat) a + S64x512.size a ≤ S64x512.size a
  h_S64x512 : 0 < S64x512.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S64x2048_S2048x2048_S64x2048_1_0_0_1_n_n_wf : DotDims.WF S64x2048 S2048x2048 S64x2048 [1] [0] [0] [1] [] []
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S1024x2048.size a
  hwx0_0 : ∀ i : grid0.Coords, EltTy.bits .f32 = 32 ∨ (Rect.block (s := S1024x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S1024x2048.size a
  hwx0_1 : ∀ i : grid0.Coords, EltTy.bits .f32 = 32 ∨ (Rect.block (s := S1024x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S1024x2048.size a
  hwx0_2 : ∀ i : grid0.Coords, EltTy.bits .f32 = 32 ∨ (Rect.block (s := S1024x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S1024x2048.size a
  hwx0_3 : ∀ i : grid0.Coords, EltTy.bits .f32 = 32 ∨ (Rect.block (s := S1024x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S1024x512.size a
  hwx0_4 : ∀ i : grid0.Coords, EltTy.bits .f32 = 32 ∨ (Rect.block (s := S1024x512) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S1024x2048.size a
  hwx0_5 : ∀ i : grid0.Coords, EltTy.bits .f32 = 32 ∨ (Rect.block (s := S1024x2048) S64x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S1024x2048.size a
  hwx0_6 : ∀ i : grid0.Coords, EltTy.bits .f32 = 32 ∨ (Rect.block (s := S1024x2048) S64x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x512.size a ≤ S1024x512.size a
  hwx0_10 : ∀ i : grid0.Coords, EltTy.bits .f32 = 32 ∨ (Rect.block (s := S1024x512) S64x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x2048.size a ≤ S1024x2048.size a
  hwx0_11 : ∀ i : grid0.Coords, EltTy.bits .f32 = 32 ∨ (Rect.block (s := S1024x2048) S64x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S1024x2048.size a
  hwx0_12 : ∀ i : grid0.Coords, EltTy.bits .f32 = 32 ∨ (Rect.block (s := S1024x2048) S64x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x2048.size a ≤ S1024x2048.size a
  hwx0_13 : ∀ i : grid0.Coords, EltTy.bits .f32 = 32 ∨ (Rect.block (s := S1024x2048) S64x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2048.size a ≤ S1024x2048.size a
  hwx0_14 : ∀ i : grid0.Coords, EltTy.bits .f32 = 32 ∨ (Rect.block (s := S1024x2048) S64x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x2048.size a ≤ S1024x2048.size a
  hwx0_15 : ∀ i : grid0.Coords, EltTy.bits .f32 = 32 ∨ (Rect.block (s := S1024x2048) S64x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x2048.size a ≤ S1024x2048.size a
  hwx0_16 : ∀ i : grid0.Coords, EltTy.bits .f32 = 32 ∨ (Rect.block (s := S1024x2048) S64x2048.size (cc0_transform_16 i) (hinb0_16 i)).WholeWords (EltTy.packing .f32)

variable [Facts₀]

def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S64x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S64x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_2) S64x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3_3) S64x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_4) S64x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v3_5) S64x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v3_6) S64x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x512, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .i1⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .i1⟩
  | .hbm, ⟨34, _⟩ => ⟨S_, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | .hbm, ⟨53, _⟩ => ⟨S_, .f32⟩
  | .hbm, ⟨54, _⟩ => ⟨S1024x512, .f32⟩
  | .hbm, ⟨55, _⟩ => ⟨S1024x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S1024x512, .f32⟩
  | .hbm, ⟨60, _⟩ => ⟨S1024x512, .f32⟩
  | .hbm, ⟨61, _⟩ => ⟨S1024x2048, .f32⟩
  | .hbm, ⟨62, _⟩ => ⟨S_, .f32⟩
  | .hbm, ⟨63, _⟩ => ⟨S1024x2048, .f32⟩
  | .hbm, ⟨64, _⟩ => ⟨S1024x2048, .f32⟩
  | .hbm, ⟨65, _⟩ => ⟨S_, .f32⟩
  | .hbm, ⟨66, _⟩ => ⟨S1024x2048, .f32⟩
  | .hbm, ⟨67, _⟩ => ⟨S1024x2048, .f32⟩
  | .hbm, ⟨68, _⟩ => ⟨S_, .f32⟩
  | .hbm, ⟨69, _⟩ => ⟨S1024x2048, .f32⟩
  | .hbm, ⟨70, _⟩ => ⟨S1024x2048, .f32⟩
  | .hbm, ⟨71, _⟩ => ⟨S_, .f32⟩
  | .hbm, ⟨72, _⟩ => ⟨S1024x2048, .f32⟩
  | .hbm, ⟨73, _⟩ => ⟨S1024x2048, .f32⟩
  | .hbm, ⟨74, _⟩ => ⟨S_, .f32⟩
  | .hbm, ⟨75, _⟩ => ⟨S1024x2048, .f32⟩
  | .hbm, ⟨76, _⟩ => ⟨S1024x2048, .i1⟩
  | .hbm, ⟨77, _⟩ => ⟨S_, .f32⟩
  | .hbm, ⟨78, _⟩ => ⟨S_, .f32⟩
  | .hbm, ⟨79, _⟩ => ⟨S1024x2048, .f32⟩
  | .hbm, ⟨80, _⟩ => ⟨S1024x2048, .f32⟩
  | .hbm, ⟨81, _⟩ => ⟨S_, .f32⟩
  | .hbm, ⟨82, _⟩ => ⟨S1024x2048, .f32⟩
  | .hbm, ⟨83, _⟩ => ⟨S1024x2048, .f32⟩
  | .hbm, ⟨84, _⟩ => ⟨S1024x2048, .f32⟩
  | .hbm, ⟨85, _⟩ => ⟨S_, .f32⟩
  | .hbm, ⟨86, _⟩ => ⟨S1024x2048, .f32⟩
  | .hbm, ⟨87, _⟩ => ⟨S1024x2048, .f32⟩
  | .hbm, ⟨88, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v24 : Ref sig .tc := ⟨.hbm, 52, rfl⟩
abbrev main_cst_10 : Ref sig .tc := ⟨.hbm, 53, rfl⟩
abbrev main_v25 : Ref sig .tc := ⟨.hbm, 54, rfl⟩
abbrev main_v26 : Ref sig .tc := ⟨.hbm, 55, rfl⟩
abbrev main_cst_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_12 : Ref sig .tc := ⟨.hbm, 62, rfl⟩
abbrev main_v32 : Ref sig .tc := ⟨.hbm, 63, rfl⟩
abbrev main_v33 : Ref sig .tc := ⟨.hbm, 64, rfl⟩
abbrev main_cst_13 : Ref sig .tc := ⟨.hbm, 65, rfl⟩
abbrev main_v34 : Ref sig .tc := ⟨.hbm, 66, rfl⟩
abbrev main_v35 : Ref sig .tc := ⟨.hbm, 67, rfl⟩
abbrev main_cst_14 : Ref sig .tc := ⟨.hbm, 68, rfl⟩
abbrev main_v36 : Ref sig .tc := ⟨.hbm, 69, rfl⟩
abbrev main_v37 : Ref sig .tc := ⟨.hbm, 70, rfl⟩
abbrev main_cst_15 : Ref sig .tc := ⟨.hbm, 71, rfl⟩
abbrev main_v38 : Ref sig .tc := ⟨.hbm, 72, rfl⟩
abbrev main_v39 : Ref sig .tc := ⟨.hbm, 73, rfl⟩
abbrev main_cst_16 : Ref sig .tc := ⟨.hbm, 74, rfl⟩
abbrev main_v40 : Ref sig .tc := ⟨.hbm, 75, rfl⟩
abbrev main_v41 : Ref sig .tc := ⟨.hbm, 76, rfl⟩
abbrev main_cst_17 : Ref sig .tc := ⟨.hbm, 77, rfl⟩
abbrev main_call2_v0 : Ref sig .tc := ⟨.hbm, 78, rfl⟩
abbrev main_call2_v1 : Ref sig .tc := ⟨.hbm, 79, rfl⟩
abbrev main_v42 : Ref sig .tc := ⟨.hbm, 80, rfl⟩
abbrev main_cst_18 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_19 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S_S1024x512 : S_.BroadcastsInDim S1024x512 (![] : Fin 0 → Fin S1024x512.rank)
  bcast_S_S2048x512 : S_.BroadcastsInDim S2048x512 (![] : Fin 0 → Fin S2048x512.rank)
  dot_S1024x2048_S2048x2048_S1024x2048_1_0_0_1_n_n_wf : DotDims.WF S1024x2048 S2048x2048 S1024x2048 [1] [0] [0] [1] [] []
  dot_S1024x2048_S2048x512_S1024x512_1_0_0_1_n_n_wf : DotDims.WF S1024x2048 S2048x512 S1024x512 [1] [0] [0] [1] [] []

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

class Facts : Prop extends Facts₀ where

variable [Facts]
-- ==== Proof.Spec.lean ====
/-
  The arithmetic of one step of a recurrent layer of leaky integrate-and-fire neurons with eligibility traces, written once,
  over extended reals, for a batch of `n` rows: what both programs compute.

  For a row `p` of the batch and a hidden unit `q`:
    current   I(p,q)  = Σ_k x(p,k)·W_in(k,q) + Σ_k z(p,k)·W_rec(k,q)
    membrane  v'(p,q) = (α·v(p,q) + I(p,q)) − z(p,q)·θ
    scaled    s(p,q)  = (v'(p,q) − θ) / θ
    spikes    z'(p,q) = 0 while refractory (r(p,q) > 0.1), else [s(p,q) > 0]
    counter   r'(p,q) = min(5, max(0, (r(p,q) + 5·z'(p,q)) − 1))
    readout   o'(p,j) = α·o(p,j) + Σ_k z'(p,k)·W_out(k,j)
    surrogate d(p,q)  = 0 while refractory, else max(γ·(1 − |s(p,q)|), 0) / θ
    traces    e'(p,q) = e(p,q)·α + (the presynaptic spike)
  Every output at row `p` depends on row `p` of the state arrays and on the whole weight matrices only, so a
  batch cut into blocks of rows is computed block by block: with arrays curried as `Fin n → Fin m → EReal` that
  is a definitional fact (`rows_*` below are `rfl`).
  The float literals α, θ, 0.1, 5, γ are kept as the words both programs spell; only 0 and 1 are evaluated.
-/
import Idealize.ShloMosaic.PureOps.Ideal
import Idealize.ShloMosaic.PureOps.Ideal.Laws
import Idealize.ShloMosaic.Lib.ValueIdx

noncomputable section

namespace Cert.Lif

open Idealize.ShloMosaic Idealize.ShloMosaic.ValueIdx
open scoped BigOperators

/-- A matrix of extended reals, by row and column. -/
abbrev Mat (n m : Nat) : Type := Fin n → Fin m → EReal

/-- A rank-2 array read by row and column. -/
abbrev cur {n m : Nat} (a : (⟨2, ![n, m]⟩ : Shape).Idx → EReal) : Mat n m := fun p q => a (ix2 p q)

/-- The membrane and output decay α = f32(exp(−1/20)). -/
abbrev cDecay : EReal := Ideal.ofBits .f32 0x3F7383C6#32
/-- The firing threshold θ = f32(0.4). -/
abbrev cThr : EReal := Ideal.ofBits .f32 0x3ECCCCCD#32
abbrev cZero : EReal := Ideal.ofBits .f32 0x00000000#32
/-- The refractory test's bound f32(0.1). -/
abbrev cRefr : EReal := Ideal.ofBits .f32 0x3DCCCCCD#32
abbrev cFive : EReal := Ideal.ofBits .f32 0x40A00000#32
abbrev cOne : EReal := Ideal.ofBits .f32 0x3F800000#32
/-- The surrogate gradient's damping γ = f32(0.3). -/
abbrev cDamp : EReal := Ideal.ofBits .f32 0x3E99999A#32

theorem cZero_eq : cZero = 0 := by
  simp [Ideal.ofBits, Ideal.ieee]

theorem cOne_eq : cOne = 1 := by
  simp [Ideal.ofBits, Ideal.ieee, -EReal.coe_mul]; norm_num

/-- A one-bit truth value as the real 0 or 1. -/
def bit01 (b : BitVec 1) : EReal := ((b.toNat : ℝ) : EReal)

/-- Widening the bit to 32 bits with zeros and reading the word as a signed integer gives the same 0 or 1. -/
theorem bit01_of_zext (b : BitVec 1) : (((b.setWidth 32).toInt : ℝ) : EReal) = bit01 b := by
  unfold bit01
  have h : b = 0#1 ∨ b = 1#1 := by
    have := b.isLt
    rcases Nat.lt_or_ge b.toNat 1 with h0 | h1
    · left; apply BitVec.eq_of_toNat_eq; simp; omega
    · right; apply BitVec.eq_of_toNat_eq; simp; omega
  rcases h with rfl | rfl <;> simp

/-- The matrix product, entry by entry. -/
def dot {n k m : Nat} (x : Mat n k) (w : Mat k m) : Mat n m := fun p q => ∑ j : Fin k, x p j * w j q

section Step
variable {n : Nat}

/-- Synaptic current: input spikes through W_in plus last step's spikes through W_rec. -/
def current (X Z : Mat n 2048) (Win Wrec : Mat 2048 2048) : Mat n 2048 :=
  fun p q => dot X Win p q + dot Z Wrec p q

/-- The new membrane potential: leak, integrate, subtract the reset of a unit that fired. -/
def membrane (X V Z : Mat n 2048) (Win Wrec : Mat 2048 2048) : Mat n 2048 :=
  fun p q => (cDecay * V p q + current X Z Win Wrec p q) - Z p q * cThr

/-- The membrane potential relative to the threshold. -/
def scaled (X V Z : Mat n 2048) (Win Wrec : Mat 2048 2048) : Mat n 2048 :=
  fun p q => Ideal.div (membrane X V Z Win Wrec p q - cThr) cThr

/-- The new spikes: none while refractory, else one exactly where the scaled potential is positive. -/
def spikes (X V Z R : Mat n 2048) (Win Wrec : Mat 2048 2048) : Mat n 2048 :=
  fun p q => Scalar.select (Ideal.cmp .ogt (R p q) cRefr) cZero (bit01 (Ideal.cmp .ogt (scaled X V Z Win Wrec p q) cZero))

/-- The new refractory counter, clipped to [0, 5]. -/
def counter (X V Z R : Mat n 2048) (Win Wrec : Mat 2048 2048) : Mat n 2048 :=
  fun p q => min cFive (max cZero ((R p q + cFive * spikes X V Z R Win Wrec p q) - cOne))

/-- The filtered readout: decayed, plus the new spikes through W_out. -/
def readout (X V Z R : Mat n 2048) (O : Mat n 512) (Win Wrec : Mat 2048 2048) (Wout : Mat 2048 512) : Mat n 512 :=
  fun p q => cDecay * O p q + dot (spikes X V Z R Win Wrec) Wout p q

/-- The surrogate derivative of the spike, zero while refractory. -/
def surrogate (X V Z R : Mat n 2048) (Win Wrec : Mat 2048 2048) : Mat n 2048 :=
  fun p q => Scalar.select (Ideal.cmp .ogt (R p q) cRefr) cZero
    (Ideal.div (max (cDamp * (cOne - max (scaled X V Z Win Wrec p q) (-(scaled X V Z Win Wrec p q)))) cZero) cThr)

/-- An eligibility trace: decayed, plus the presynaptic spike. -/
def trace (T S : Mat n 2048) : Mat n 2048 :=
  fun p q => T p q * cDecay + S p q

end Step

/-! ## Row locality: a block of rows of the batch is computed from that block of rows -/

section Rows
variable {n n' : Nat} (ρ : Fin n → Fin n')

theorem rows_membrane (X V Z : Mat n' 2048) (Win Wrec : Mat 2048 2048) (p : Fin n) (q : Fin 2048) :
    membrane (fun a b => X (ρ a) b) (fun a b => V (ρ a) b) (fun a b => Z (ρ a) b) Win Wrec p q
      = membrane X V Z Win Wrec (ρ p) q := rfl

theorem rows_spikes (X V Z R : Mat n' 2048) (Win Wrec : Mat 2048 2048) (p : Fin n) (q : Fin 2048) :
    spikes (fun a b => X (ρ a) b) (fun a b => V (ρ a) b) (fun a b => Z (ρ a) b) (fun a b => R (ρ a) b) Win Wrec p q
      = spikes X V Z R Win Wrec (ρ p) q := rfl

theorem rows_counter (X V Z R : Mat n' 2048) (Win Wrec : Mat 2048 2048) (p : Fin n) (q : Fin 2048) :
    counter (fun a b => X (ρ a) b) (fun a b => V (ρ a) b) (fun a b => Z (ρ a) b) (fun a b => R (ρ a) b) Win Wrec p q
      = counter X V Z R Win Wrec (ρ p) q := rfl

theorem rows_readout (X V Z R : Mat n' 2048) (O : Mat n' 512) (Win Wrec : Mat 2048 2048) (Wout : Mat 2048 512) (p : Fin n) (q : Fin 512) :
    readout (fun a b => X (ρ a) b) (fun a b => V (ρ a) b) (fun a b => Z (ρ a) b) (fun a b => R (ρ a) b) (fun a b => O (ρ a) b) Win Wrec Wout p q
      = readout X V Z R O Win Wrec Wout (ρ p) q := rfl

theorem rows_surrogate (X V Z R : Mat n' 2048) (Win Wrec : Mat 2048 2048) (p : Fin n) (q : Fin 2048) :
    surrogate (fun a b => X (ρ a) b) (fun a b => V (ρ a) b) (fun a b => Z (ρ a) b) (fun a b => R (ρ a) b) Win Wrec p q
      = surrogate X V Z R Win Wrec (ρ p) q := rfl

theorem rows_trace (T S : Mat n' 2048) (p : Fin n) (q : Fin 2048) :
    trace (fun a b => T (ρ a) b) (fun a b => S (ρ a) b) p q = trace T S (ρ p) q := rfl

end Rows

/-! ## The seven results as whole arrays of the batch of 1024 rows -/

/-- A rank-2 array of extended reals. -/
abbrev Arr (n m : Nat) : Type := (⟨2, ![n, m]⟩ : Shape).Idx → EReal

section Arrays
variable (X V Z R : Arr 1024 2048) (O : Arr 1024 512) (Win Wrec : Arr 2048 2048) (Wout : Arr 2048 512)

def arrMembrane : Arr 1024 2048 := fun i => membrane (cur X) (cur V) (cur Z) (cur Win) (cur Wrec) (i 0) (i 1)
def arrSpikes : Arr 1024 2048 := fun i => spikes (cur X) (cur V) (cur Z) (cur R) (cur Win) (cur Wrec) (i 0) (i 1)
def arrCounter : Arr 1024 2048 := fun i => counter (cur X) (cur V) (cur Z) (cur R) (cur Win) (cur Wrec) (i 0) (i 1)
def arrReadout : Arr 1024 512 :=
  fun i => readout (cur X) (cur V) (cur Z) (cur R) (cur O) (cur Win) (cur Wrec) (cur Wout) (i 0) (i 1)
def arrSurrogate : Arr 1024 2048 := fun i => surrogate (cur X) (cur V) (cur Z) (cur R) (cur Win) (cur Wrec) (i 0) (i 1)
def arrTrace (T S : Arr 1024 2048) : Arr 1024 2048 := fun i => trace (cur T) (cur S) (i 0) (i 1)

end Arrays

end Cert.Lif

end
-- ==== Proof.KernelPay.lean ====
/-
  The kernel body's arithmetic, read at one entry of a block of 64 rows, is the layer's step of Spec.lean on those
  64 rows.

  The body's stores are pure functions of its loaded blocks (the generated skeleton's payloads). Read at the
  entry (p, q) of the block and at the ideal values: a `tpu.matmul` into the zero accumulator is the sum over the
  contracted index (renamed to `Fin 2048`, exactly as the reference's products are read), a change of float format
  is the identity, a shape cast to the same shape is the identity, a broadcast literal is that literal, the bit
  of a comparison widened with zeros and read as a signed integer is 0 or 1 (`bit01`), and the product of the
  readout's matrix product with the literal one is the product.
-/
import proofs.«180124_j12575664243445_1_alg».proof.Proof.Gen.KernelIdeal.Skeleton
import proofs.«180124_j12575664243445_1_alg».proof.Proof.Spec
import Idealize.ShloMosaic.Lib.Pipeline.Value

noncomputable section

namespace Cert.Lif.Ker

open Cert.KernelIdeal Cert.KernelIdeal.Gen Cert.Lif
open Idealize.ShloMosaic Idealize.ShloMosaic.ValueIdx
open scoped BigOperators

/-! ## The two matrix products of a block -/

theorem lhsH_0 (i : S64x2048.Idx) (k : dot_S64x2048_S2048x2048_S64x2048_1_0_0_1_n_n.contr.Idx) :
    (dot_S64x2048_S2048x2048_S64x2048_1_0_0_1_n_n.lhsIdx i k 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
theorem lhsH_1 (i : S64x2048.Idx) (k : dot_S64x2048_S2048x2048_S64x2048_1_0_0_1_n_n.contr.Idx) :
    (dot_S64x2048_S2048x2048_S64x2048_1_0_0_1_n_n.lhsIdx i k 1).val = (k ⟨0, by decide⟩).val :=
  dot_S64x2048_S2048x2048_S64x2048_1_0_0_1_n_n.lhsIdx_val_of_single rfl i k
theorem rhsH_0 (i : S64x2048.Idx) (k : dot_S64x2048_S2048x2048_S64x2048_1_0_0_1_n_n.contr.Idx) :
    (dot_S64x2048_S2048x2048_S64x2048_1_0_0_1_n_n.rhsIdx i k 0).val = (k ⟨0, by decide⟩).val :=
  dot_S64x2048_S2048x2048_S64x2048_1_0_0_1_n_n.rhsIdx_val_of_single rfl i k
theorem rhsH_1 (i : S64x2048.Idx) (k : dot_S64x2048_S2048x2048_S64x2048_1_0_0_1_n_n.contr.Idx) :
    (dot_S64x2048_S2048x2048_S64x2048_1_0_0_1_n_n.rhsIdx i k 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- A block of 64 rows times a 2048 × 2048 matrix, into zero: the entry (p, q) is Σ_k l(p,k)·r(k,q). -/
theorem mm_hidden (l : FVec Ideal S64x2048 .bf16) (r : FVec Ideal S2048x2048 .bf16) (p : Fin 64) (q : Fin 2048) :
    matmul dot_S64x2048_S2048x2048_S64x2048_1_0_0_1_n_n none l r (constant S64x2048 .f32 0x00000000#32) (ix2 p q)
      = dot (cur l) (cur r) p q := by
  simp only [matmul]
  rw [Ideal.matmul_constant_zero_apply, ← Equiv.sum_comp (contrEquiv1 dot_S64x2048_S2048x2048_S64x2048_1_0_0_1_n_n 2048 rfl rfl).symm]
  refine Finset.sum_congr rfl fun k _ => ?_
  have hk := contrEquiv1_symm_val dot_S64x2048_S2048x2048_S64x2048_1_0_0_1_n_n 2048 rfl rfl k
  have el : dot_S64x2048_S2048x2048_S64x2048_1_0_0_1_n_n.lhsIdx (ix2 p q) ((contrEquiv1 dot_S64x2048_S2048x2048_S64x2048_1_0_0_1_n_n 2048 rfl rfl).symm k) = ix2 p k := funext fun a => Fin.ext (by
    match a with
    | ⟨0, _⟩ => exact lhsH_0 _ _
    | ⟨1, _⟩ => exact (lhsH_1 _ _).trans hk)
  have er : dot_S64x2048_S2048x2048_S64x2048_1_0_0_1_n_n.rhsIdx (ix2 p q) ((contrEquiv1 dot_S64x2048_S2048x2048_S64x2048_1_0_0_1_n_n 2048 rfl rfl).symm k) = ix2 k q := funext fun a => Fin.ext (by
    match a with
    | ⟨0, _⟩ => exact (rhsH_0 _ _).trans hk
    | ⟨1, _⟩ => exact rhsH_1 _ _)
  rw [el, er]

theorem lhsO_0 (i : S64x512.Idx) (k : dot_S64x2048_S2048x512_S64x512_1_0_0_1_n_n.contr.Idx) :
    (dot_S64x2048_S2048x512_S64x512_1_0_0_1_n_n.lhsIdx i k 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
theorem lhsO_1 (i : S64x512.Idx) (k : dot_S64x2048_S2048x512_S64x512_1_0_0_1_n_n.contr.Idx) :
    (dot_S64x2048_S2048x512_S64x512_1_0_0_1_n_n.lhsIdx i k 1).val = (k ⟨0, by decide⟩).val :=
  dot_S64x2048_S2048x512_S64x512_1_0_0_1_n_n.lhsIdx_val_of_single rfl i k
theorem rhsO_0 (i : S64x512.Idx) (k : dot_S64x2048_S2048x512_S64x512_1_0_0_1_n_n.contr.Idx) :
    (dot_S64x2048_S2048x512_S64x512_1_0_0_1_n_n.rhsIdx i k 0).val = (k ⟨0, by decide⟩).val :=
  dot_S64x2048_S2048x512_S64x512_1_0_0_1_n_n.rhsIdx_val_of_single rfl i k
theorem rhsO_1 (i : S64x512.Idx) (k : dot_S64x2048_S2048x512_S64x512_1_0_0_1_n_n.contr.Idx) :
    (dot_S64x2048_S2048x512_S64x512_1_0_0_1_n_n.rhsIdx i k 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl

/-- A block of 64 rows times the 2048 × 512 readout matrix, into zero: the entry (p, q) is Σ_k l(p,k)·r(k,q). -/
theorem mm_out (l : FVec Ideal S64x2048 .bf16) (r : FVec Ideal S2048x512 .bf16) (p : Fin 64) (q : Fin 512) :
    matmul dot_S64x2048_S2048x512_S64x512_1_0_0_1_n_n none l r (constant S64x512 .f32 0x00000000#32) (ix2 p q)
      = dot (cur l) (cur r) p q := by
  simp only [matmul]
  rw [Ideal.matmul_constant_zero_apply, ← Equiv.sum_comp (contrEquiv1 dot_S64x2048_S2048x512_S64x512_1_0_0_1_n_n 2048 rfl rfl).symm]
  refine Finset.sum_congr rfl fun k _ => ?_
  have hk := contrEquiv1_symm_val dot_S64x2048_S2048x512_S64x512_1_0_0_1_n_n 2048 rfl rfl k
  have el : dot_S64x2048_S2048x512_S64x512_1_0_0_1_n_n.lhsIdx (ix2 p q) ((contrEquiv1 dot_S64x2048_S2048x512_S64x512_1_0_0_1_n_n 2048 rfl rfl).symm k) = ix2 p k := funext fun a => Fin.ext (by
    match a with
    | ⟨0, _⟩ => exact lhsO_0 _ _
    | ⟨1, _⟩ => exact (lhsO_1 _ _).trans hk)
  have er : dot_S64x2048_S2048x512_S64x512_1_0_0_1_n_n.rhsIdx (ix2 p q) ((contrEquiv1 dot_S64x2048_S2048x512_S64x512_1_0_0_1_n_n 2048 rfl rfl).symm k) = ix2 k q := funext fun a => Fin.ext (by
    match a with
    | ⟨0, _⟩ => exact (rhsO_0 _ _).trans hk
    | ⟨1, _⟩ => exact rhsO_1 _ _)
  rw [el, er]

/-! ## The payloads -/

/-- The absolute value of a vector, at an entry. -/
theorem absf_at {s : Shape} {φ : FTy} (a : FVec Ideal s φ) (i : s.Idx) : absf a i = max (a i) (-(a i)) := rfl

variable (x0 x1 x2 x3 x5 x6 : Vec Ideal S64x2048 .f32) (x4 : Vec Ideal S64x512 .f32)
variable (w7 w8 : Vec Ideal S2048x2048 .bf16) (w9 : Vec Ideal S2048x512 .bf16)

/-- The new membrane potential of the block. -/
theorem pay_membrane (p : Fin 64) (q : Fin 2048) :
    k0_pay1 (F := Ideal) x0 x1 x2 w7 w8 (ix2 p q) = membrane (cur x0) (cur x1) (cur x2) (cur w7) (cur w8) p q := by
  unfold k0_pay1
  simp only [subf_apply, addf_apply, mulf_apply, broadcast_apply, shapeCast_self, mm_hidden]
  rfl

/-- The scaled potential of the block. -/
theorem pay_scaled (p : Fin 64) (q : Fin 2048) :
    k0_pay2 (F := Ideal) x0 x1 x2 w7 w8 (ix2 p q) = scaled (cur x0) (cur x1) (cur x2) (cur w7) (cur w8) p q := by
  unfold k0_pay2
  simp only [subf_apply, divf_apply, broadcast_apply, pay_membrane]
  rfl

/-- The spikes of the block: refractory units silenced, the others firing where the scaled potential is positive. -/
theorem pay_spikes (p : Fin 64) (q : Fin 2048) :
    k0_pay5 (F := Ideal) (k0_pay3 x0 x1 x2 w7 w8) (k0_pay4 x3) (Scalar.ofBits .f32 0x00000000#32) (ix2 p q)
      = spikes (cur x0) (cur x1) (cur x2) (cur x3) (cur w7) (cur w8) p q := by
  unfold k0_pay5 k0_pay4 k0_pay3
  simp only [select_apply, cmpf_apply, sitofp_apply, extui_apply, broadcast_apply, pay_scaled]
  unfold spikes
  rw [← bit01_of_zext]
  rfl

/-- The refractory counters of the block. -/
theorem pay_counter (p : Fin 64) (q : Fin 2048) :
    k0_pay6 (F := Ideal) x3 (k0_pay3 x0 x1 x2 w7 w8) (k0_pay4 x3) (Scalar.ofBits .f32 0x00000000#32) (ix2 p q)
      = counter (cur x0) (cur x1) (cur x2) (cur x3) (cur w7) (cur w8) p q := by
  unfold k0_pay6
  simp only [minimumf_apply, maximumf_apply, subf_apply, addf_apply, mulf_apply, broadcast_apply, pay_spikes]
  rfl

/-- The readout of the block. -/
theorem pay_readout (p : Fin 64) (q : Fin 512) :
    k0_pay7 (F := Ideal) x4 (k0_pay3 x0 x1 x2 w7 w8) (k0_pay4 x3) (Scalar.ofBits .f32 0x00000000#32) w9 (ix2 p q)
      = readout (cur x0) (cur x1) (cur x2) (cur x3) (cur x4) (cur w7) (cur w8) (cur w9) p q := by
  unfold k0_pay7
  simp only [addf_apply, mulf_apply, broadcast_apply, shapeCast_self, mm_out]
  have hz : cur (truncf .bf16 (k0_pay5 (F := Ideal) (k0_pay3 x0 x1 x2 w7 w8) (k0_pay4 x3) (Scalar.ofBits .f32 0x00000000#32)) bitsLt_bf16_f32)
      = spikes (cur x0) (cur x1) (cur x2) (cur x3) (cur w7) (cur w8) :=
    funext fun a => funext fun b => pay_spikes x0 x1 x2 x3 w7 w8 a b
  rw [hz]
  show cDecay * x4 (ix2 p q) + cOne * dot _ _ p q = _
  rw [cOne_eq, one_mul]
  rfl

/-- The surrogate derivative of the block. -/
theorem pay_surrogate (p : Fin 64) (q : Fin 2048) :
    k0_pay8 (F := Ideal) (k0_pay2 x0 x1 x2 w7 w8) (k0_pay4 x3) (ix2 p q)
      = surrogate (cur x0) (cur x1) (cur x2) (cur x3) (cur w7) (cur w8) p q := by
  unfold k0_pay8 k0_pay4
  simp only [select_apply, cmpf_apply, divf_apply, maximumf_apply, mulf_apply, subf_apply, broadcast_apply, absf_at, pay_scaled]
  rfl

/-- The input trace of the block. -/
theorem pay_trace_in (p : Fin 64) (q : Fin 2048) :
    k0_pay9 (F := Ideal) x0 x5 (ix2 p q) = trace (cur x5) (cur x0) p q := by
  unfold k0_pay9
  rfl

/-- The recurrent trace of the block. -/
theorem pay_trace_rec (p : Fin 64) (q : Fin 2048) :
    k0_pay10 (F := Ideal) x2 x6 (ix2 p q) = trace (cur x6) (cur x2) p q := by
  unfold k0_pay10
  rfl

end Cert.Lif.Ker

end
-- ==== Proof.Blocks.lean ====
/-
  From blocks of rows to whole arrays: what the kernel leaves in its seven result arrays.

  The grid has 16 points; point `t` stages rows 64 t … 64 t + 63 of each of the seven state arrays (and the three
  weight matrices whole), runs the body, and writes rows 64 t … 64 t + 63 of each of the seven results back. By
  KernelPay.lean the body's stores are the layer's step on those 64 rows, and by Spec.lean's row locality that
  is rows 64 t … 64 t + 63 of the step on the whole batch: each point writes back ITS BLOCK of one whole-array
  function, the 16 blocks cover the array, so the array ends holding that function. The weight arrays the
  kernel stages are the host's bf16 conversions of the arguments, which at the ideal values are the arguments.
-/
import proofs.«180124_j12575664243445_1_alg».proof.Proof.Gen.KernelIdeal.Value
import proofs.«180124_j12575664243445_1_alg».proof.Proof.KernelPay

noncomputable section

namespace Cert.Lif.Blocks

open Cert.KernelIdeal Cert.KernelIdeal.Gen Cert.KernelIdeal.Value Cert.Lif Cert.Lif.Ker
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## A block of rows read out of an array, by row and column -/

/-- A block whose rows are rows `r ·` of an array, read by row and column. -/
theorem cur_rows {n n' k : Nat} (x : Arr n k) (X : Arr n' k) (r : Fin n → Fin n')
    (h : ∀ j, x j = X (ix2 (r (j 0)) (j 1))) : cur x = fun a b => cur X (r a) b :=
  funext fun a => funext fun b => h (ix2 a b)

/-- A block that is the whole array. -/
theorem cur_same {n k : Nat} (w W : Arr n k) (h : ∀ j, w j = W j) : cur w = cur W := by
  rw [funext h]

/-! ## The body's seven stores on a block of rows are the block's rows of the whole-batch step -/

section Block
variable (x0 x1 x2 x3 x5 x6 : Vec Ideal S64x2048 .f32) (x4 : Vec Ideal S64x512 .f32)
variable (w7 w8 : Vec Ideal S2048x2048 .bf16) (w9 : Vec Ideal S2048x512 .bf16)
variable (X V Z R T : Arr 1024 2048) (O : Arr 1024 512) (Win Wrec : Arr 2048 2048) (Wout : Arr 2048 512)
variable (r : Fin 64 → Fin 1024)

theorem block_membrane
    (h0 : ∀ j, x0 j = X (ix2 (r (j 0)) (j 1))) (h1 : ∀ j, x1 j = V (ix2 (r (j 0)) (j 1)))
    (h2 : ∀ j, x2 j = Z (ix2 (r (j 0)) (j 1))) (h7 : ∀ j, w7 j = Win j) (h8 : ∀ j, w8 j = Wrec j) (j : S64x2048.Idx) :
    k0_pay1 (F := Ideal) x0 x1 x2 w7 w8 j = arrMembrane X V Z Win Wrec (ix2 (r (j 0)) (j 1)) := by
  obtain ⟨p, q, rfl⟩ : ∃ p q, j = ix2 p q := ⟨j 0, j 1, eq_ix2 j⟩
  rw [pay_membrane, cur_rows x0 X r h0, cur_rows x1 V r h1, cur_rows x2 Z r h2, cur_same w7 Win h7, cur_same w8 Wrec h8]
  rfl

theorem block_spikes
    (h0 : ∀ j, x0 j = X (ix2 (r (j 0)) (j 1))) (h1 : ∀ j, x1 j = V (ix2 (r (j 0)) (j 1)))
    (h2 : ∀ j, x2 j = Z (ix2 (r (j 0)) (j 1))) (h3 : ∀ j, x3 j = R (ix2 (r (j 0)) (j 1)))
    (h7 : ∀ j, w7 j = Win j) (h8 : ∀ j, w8 j = Wrec j) (j : S64x2048.Idx) :
    k0_pay5 (F := Ideal) (k0_pay3 x0 x1 x2 w7 w8) (k0_pay4 x3) (Scalar.ofBits .f32 0x00000000#32) j
      = arrSpikes X V Z R Win Wrec (ix2 (r (j 0)) (j 1)) := by
  obtain ⟨p, q, rfl⟩ : ∃ p q, j = ix2 p q := ⟨j 0, j 1, eq_ix2 j⟩
  rw [pay_spikes, cur_rows x0 X r h0, cur_rows x1 V r h1, cur_rows x2 Z r h2, cur_rows x3 R r h3, cur_same w7 Win h7,
    cur_same w8 Wrec h8]
  rfl

theorem block_counter
    (h0 : ∀ j, x0 j = X (ix2 (r (j 0)) (j 1))) (h1 : ∀ j, x1 j = V (ix2 (r (j 0)) (j 1)))
    (h2 : ∀ j, x2 j = Z (ix2 (r (j 0)) (j 1))) (h3 : ∀ j, x3 j = R (ix2 (r (j 0)) (j 1)))
    (h7 : ∀ j, w7 j = Win j) (h8 : ∀ j, w8 j = Wrec j) (j : S64x2048.Idx) :
    k0_pay6 (F := Ideal) x3 (k0_pay3 x0 x1 x2 w7 w8) (k0_pay4 x3) (Scalar.ofBits .f32 0x00000000#32) j
      = arrCounter X V Z R Win Wrec (ix2 (r (j 0)) (j 1)) := by
  obtain ⟨p, q, rfl⟩ : ∃ p q, j = ix2 p q := ⟨j 0, j 1, eq_ix2 j⟩
  rw [pay_counter, cur_rows x0 X r h0, cur_rows x1 V r h1, cur_rows x2 Z r h2, cur_rows x3 R r h3, cur_same w7 Win h7,
    cur_same w8 Wrec h8]
  rfl

theorem block_readout
    (h0 : ∀ j, x0 j = X (ix2 (r (j 0)) (j 1))) (h1 : ∀ j, x1 j = V (ix2 (r (j 0)) (j 1)))
    (h2 : ∀ j, x2 j = Z (ix2 (r (j 0)) (j 1))) (h3 : ∀ j, x3 j = R (ix2 (r (j 0)) (j 1)))
    (h4 : ∀ j, x4 j = O (ix2 (r (j 0)) (j 1)))
    (h7 : ∀ j, w7 j = Win j) (h8 : ∀ j, w8 j = Wrec j) (h9 : ∀ j, w9 j = Wout j) (j : S64x512.Idx) :
    k0_pay7 (F := Ideal) x4 (k0_pay3 x0 x1 x2 w7 w8) (k0_pay4 x3) (Scalar.ofBits .f32 0x00000000#32) w9 j
      = arrReadout X V Z R O Win Wrec Wout (ix2 (r (j 0)) (j 1)) := by
  obtain ⟨p, q, rfl⟩ : ∃ p q, j = ix2 p q := ⟨j 0, j 1, eq_ix2 j⟩
  rw [pay_readout, cur_rows x0 X r h0, cur_rows x1 V r h1, cur_rows x2 Z r h2, cur_rows x3 R r h3, cur_rows x4 O r h4,
    cur_same w7 Win h7, cur_same w8 Wrec h8, cur_same w9 Wout h9]
  rfl

theorem block_surrogate
    (h0 : ∀ j, x0 j = X (ix2 (r (j 0)) (j 1))) (h1 : ∀ j, x1 j = V (ix2 (r (j 0)) (j 1)))
    (h2 : ∀ j, x2 j = Z (ix2 (r (j 0)) (j 1))) (h3 : ∀ j, x3 j = R (ix2 (r (j 0)) (j 1)))
    (h7 : ∀ j, w7 j = Win j) (h8 : ∀ j, w8 j = Wrec j) (j : S64x2048.Idx) :
    k0_pay8 (F := Ideal) (k0_pay2 x0 x1 x2 w7 w8) (k0_pay4 x3) j
      = arrSurrogate X V Z R Win Wrec (ix2 (r (j 0)) (j 1)) := by
  obtain ⟨p, q, rfl⟩ : ∃ p q, j = ix2 p q := ⟨j 0, j 1, eq_ix2 j⟩
  rw [pay_surrogate, cur_rows x0 X r h0, cur_rows x1 V r h1, cur_rows x2 Z r h2, cur_rows x3 R r h3, cur_same w7 Win h7,
    cur_same w8 Wrec h8]
  rfl

theorem block_trace_in
    (h0 : ∀ j, x0 j = X (ix2 (r (j 0)) (j 1))) (h5 : ∀ j, x5 j = T (ix2 (r (j 0)) (j 1))) (j : S64x2048.Idx) :
    k0_pay9 (F := Ideal) x0 x5 j = arrTrace T X (ix2 (r (j 0)) (j 1)) := by
  obtain ⟨p, q, rfl⟩ : ∃ p q, j = ix2 p q := ⟨j 0, j 1, eq_ix2 j⟩
  rw [pay_trace_in, cur_rows x0 X r h0, cur_rows x5 T r h5]
  rfl

theorem block_trace_rec
    (h2 : ∀ j, x2 j = Z (ix2 (r (j 0)) (j 1))) (h6 : ∀ j, x6 j = T (ix2 (r (j 0)) (j 1))) (j : S64x2048.Idx) :
    k0_pay10 (F := Ideal) x2 x6 j = arrTrace T Z (ix2 (r (j 0)) (j 1)) := by
  obtain ⟨p, q, rfl⟩ : ∃ p q, j = ix2 p q := ⟨j 0, j 1, eq_ix2 j⟩
  rw [pay_trace_rec, cur_rows x2 Z r h2, cur_rows x6 T r h6]
  rfl

end Block

variable (m : (ℓ : Loc nD τ sig) → Buf (Elt Ideal) ℓ) (ρ : Dev nD → PrngReg)

/-! ## The windows' blocks -/

/-- Row `a` of the block of grid point `t` is row `64 t + a` of the batch. -/
def rowAt (t : Fin cfg0.N) (a : Fin 64) : Fin 1024 :=
  ⟨t.val * 64 + a.val, by have h : t.val < 16 := lt_of_lt_of_eq t.isLt N_0; have := a.isLt; omega⟩

/-- The weight arrays the kernel stages are the host's conversions of the arguments to bf16: at the ideal values, the arguments. -/
theorem V_main_v0 (c : Dev nD) : (V m c main_v0 : S2048x2048.Idx → EReal) = m ((c : Thread nD τ).loc main_arg7) := by
  dsimp only [V, hostOps0]; after_results; rfl
theorem V_main_v1 (c : Dev nD) : (V m c main_v1 : S2048x2048.Idx → EReal) = m ((c : Thread nD τ).loc main_arg8) := by
  dsimp only [V, hostOps0]; after_results; rfl
theorem V_main_v2 (c : Dev nD) : (V m c main_v2 : S2048x512.Idx → EReal) = m ((c : Thread nD τ).loc main_arg9) := by
  dsimp only [V, hostOps0]; after_results; rfl

/-- The printed index maps, decided over the 16 points: a state or result window's block index is (t, 0), a weight window's (0, 0). -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-! Where an entry of a block sits in its array: on each axis at the block index times the block's extent plus the
    entry's own coordinate. -/

theorem emb0 (t : Fin cfg0.N) (j : S64x2048.Idx) : ((cfg0.win 0).blk t).view.emb j = ix2 (rowAt t (j 0)) (j 1) := by
  funext d; apply Fin.ext
  match d with
  | ⟨0, _⟩ => show win0_0.index t (0 : Fin 2) * 64 + 1 * (j 0).val = t.val * 64 + (j 0).val; rw [(idx0 t).1]; omega
  | ⟨1, _⟩ => show win0_0.index t (1 : Fin 2) * 2048 + 1 * (j 1).val = (j 1).val; rw [(idx0 t).2]; omega
theorem emb1 (t : Fin cfg0.N) (j : S64x2048.Idx) : ((cfg0.win 1).blk t).view.emb j = ix2 (rowAt t (j 0)) (j 1) := by
  funext d; apply Fin.ext
  match d with
  | ⟨0, _⟩ => show win0_1.index t (0 : Fin 2) * 64 + 1 * (j 0).val = t.val * 64 + (j 0).val; rw [(idx1 t).1]; omega
  | ⟨1, _⟩ => show win0_1.index t (1 : Fin 2) * 2048 + 1 * (j 1).val = (j 1).val; rw [(idx1 t).2]; omega
theorem emb2 (t : Fin cfg0.N) (j : S64x2048.Idx) : ((cfg0.win 2).blk t).view.emb j = ix2 (rowAt t (j 0)) (j 1) := by
  funext d; apply Fin.ext
  match d with
  | ⟨0, _⟩ => show win0_2.index t (0 : Fin 2) * 64 + 1 * (j 0).val = t.val * 64 + (j 0).val; rw [(idx2 t).1]; omega
  | ⟨1, _⟩ => show win0_2.index t (1 : Fin 2) * 2048 + 1 * (j 1).val = (j 1).val; rw [(idx2 t).2]; omega
theorem emb3 (t : Fin cfg0.N) (j : S64x2048.Idx) : ((cfg0.win 3).blk t).view.emb j = ix2 (rowAt t (j 0)) (j 1) := by
  funext d; apply Fin.ext
  match d with
  | ⟨0, _⟩ => show win0_3.index t (0 : Fin 2) * 64 + 1 * (j 0).val = t.val * 64 + (j 0).val; rw [(idx3 t).1]; omega
  | ⟨1, _⟩ => show win0_3.index t (1 : Fin 2) * 2048 + 1 * (j 1).val = (j 1).val; rw [(idx3 t).2]; omega
theorem emb4 (t : Fin cfg0.N) (j : S64x512.Idx) : ((cfg0.win 4).blk t).view.emb j = ix2 (rowAt t (j 0)) (j 1) := by
  funext d; apply Fin.ext
  match d with
  | ⟨0, _⟩ => show win0_4.index t (0 : Fin 2) * 64 + 1 * (j 0).val = t.val * 64 + (j 0).val; rw [(idx4 t).1]; omega
  | ⟨1, _⟩ => show win0_4.index t (1 : Fin 2) * 512 + 1 * (j 1).val = (j 1).val; rw [(idx4 t).2]; omega
theorem emb5 (t : Fin cfg0.N) (j : S64x2048.Idx) : ((cfg0.win 5).blk t).view.emb j = ix2 (rowAt t (j 0)) (j 1) := by
  funext d; apply Fin.ext
  match d with
  | ⟨0, _⟩ => show win0_5.index t (0 : Fin 2) * 64 + 1 * (j 0).val = t.val * 64 + (j 0).val; rw [(idx5 t).1]; omega
  | ⟨1, _⟩ => show win0_5.index t (1 : Fin 2) * 2048 + 1 * (j 1).val = (j 1).val; rw [(idx5 t).2]; omega
theorem emb6 (t : Fin cfg0.N) (j : S64x2048.Idx) : ((cfg0.win 6).blk t).view.emb j = ix2 (rowAt t (j 0)) (j 1) := by
  funext d; apply Fin.ext
  match d with
  | ⟨0, _⟩ => show win0_6.index t (0 : Fin 2) * 64 + 1 * (j 0).val = t.val * 64 + (j 0).val; rw [(idx6 t).1]; omega
  | ⟨1, _⟩ => show win0_6.index t (1 : Fin 2) * 2048 + 1 * (j 1).val = (j 1).val; rw [(idx6 t).2]; omega
theorem emb7 (t : Fin cfg0.N) (j : S2048x2048.Idx) : ((cfg0.win 7).blk t).view.emb j = j := by
  funext d; apply Fin.ext
  match d with
  | ⟨0, _⟩ => show win0_7.index t (0 : Fin 2) * 2048 + 1 * (j 0).val = (j 0).val; rw [(idx7 t).1]; omega
  | ⟨1, _⟩ => show win0_7.index t (1 : Fin 2) * 2048 + 1 * (j 1).val = (j 1).val; rw [(idx7 t).2]; omega
theorem emb8 (t : Fin cfg0.N) (j : S2048x2048.Idx) : ((cfg0.win 8).blk t).view.emb j = j := by
  funext d; apply Fin.ext
  match d with
  | ⟨0, _⟩ => show win0_8.index t (0 : Fin 2) * 2048 + 1 * (j 0).val = (j 0).val; rw [(idx8 t).1]; omega
  | ⟨1, _⟩ => show win0_8.index t (1 : Fin 2) * 2048 + 1 * (j 1).val = (j 1).val; rw [(idx8 t).2]; omega
theorem emb9 (t : Fin cfg0.N) (j : S2048x512.Idx) : ((cfg0.win 9).blk t).view.emb j = j := by
  funext d; apply Fin.ext
  match d with
  | ⟨0, _⟩ => show win0_9.index t (0 : Fin 2) * 2048 + 1 * (j 0).val = (j 0).val; rw [(idx9 t).1]; omega
  | ⟨1, _⟩ => show win0_9.index t (1 : Fin 2) * 512 + 1 * (j 1).val = (j 1).val; rw [(idx9 t).2]; omega
theorem emb10 (t : Fin cfg0.N) (j : S64x512.Idx) : ((cfg0.win 10).blk t).view.emb j = ix2 (rowAt t (j 0)) (j 1) := by
  funext d; apply Fin.ext
  match d with
  | ⟨0, _⟩ => show win0_10.index t (0 : Fin 2) * 64 + 1 * (j 0).val = t.val * 64 + (j 0).val; rw [(idx10 t).1]; omega
  | ⟨1, _⟩ => show win0_10.index t (1 : Fin 2) * 512 + 1 * (j 1).val = (j 1).val; rw [(idx10 t).2]; omega
theorem emb11 (t : Fin cfg0.N) (j : S64x2048.Idx) : ((cfg0.win 11).blk t).view.emb j = ix2 (rowAt t (j 0)) (j 1) := by
  funext d; apply Fin.ext
  match d with
  | ⟨0, _⟩ => show win0_11.index t (0 : Fin 2) * 64 + 1 * (j 0).val = t.val * 64 + (j 0).val; rw [(idx11 t).1]; omega
  | ⟨1, _⟩ => show win0_11.index t (1 : Fin 2) * 2048 + 1 * (j 1).val = (j 1).val; rw [(idx11 t).2]; omega
theorem emb12 (t : Fin cfg0.N) (j : S64x2048.Idx) : ((cfg0.win 12).blk t).view.emb j = ix2 (rowAt t (j 0)) (j 1) := by
  funext d; apply Fin.ext
  match d with
  | ⟨0, _⟩ => show win0_12.index t (0 : Fin 2) * 64 + 1 * (j 0).val = t.val * 64 + (j 0).val; rw [(idx12 t).1]; omega
  | ⟨1, _⟩ => show win0_12.index t (1 : Fin 2) * 2048 + 1 * (j 1).val = (j 1).val; rw [(idx12 t).2]; omega
theorem emb13 (t : Fin cfg0.N) (j : S64x2048.Idx) : ((cfg0.win 13).blk t).view.emb j = ix2 (rowAt t (j 0)) (j 1) := by
  funext d; apply Fin.ext
  match d with
  | ⟨0, _⟩ => show win0_13.index t (0 : Fin 2) * 64 + 1 * (j 0).val = t.val * 64 + (j 0).val; rw [(idx13 t).1]; omega
  | ⟨1, _⟩ => show win0_13.index t (1 : Fin 2) * 2048 + 1 * (j 1).val = (j 1).val; rw [(idx13 t).2]; omega
theorem emb14 (t : Fin cfg0.N) (j : S64x2048.Idx) : ((cfg0.win 14).blk t).view.emb j = ix2 (rowAt t (j 0)) (j 1) := by
  funext d; apply Fin.ext
  match d with
  | ⟨0, _⟩ => show win0_14.index t (0 : Fin 2) * 64 + 1 * (j 0).val = t.val * 64 + (j 0).val; rw [(idx14 t).1]; omega
  | ⟨1, _⟩ => show win0_14.index t (1 : Fin 2) * 2048 + 1 * (j 1).val = (j 1).val; rw [(idx14 t).2]; omega
theorem emb15 (t : Fin cfg0.N) (j : S64x2048.Idx) : ((cfg0.win 15).blk t).view.emb j = ix2 (rowAt t (j 0)) (j 1) := by
  funext d; apply Fin.ext
  match d with
  | ⟨0, _⟩ => show win0_15.index t (0 : Fin 2) * 64 + 1 * (j 0).val = t.val * 64 + (j 0).val; rw [(idx15 t).1]; omega
  | ⟨1, _⟩ => show win0_15.index t (1 : Fin 2) * 2048 + 1 * (j 1).val = (j 1).val; rw [(idx15 t).2]; omega
theorem emb16 (t : Fin cfg0.N) (j : S64x2048.Idx) : ((cfg0.win 16).blk t).view.emb j = ix2 (rowAt t (j 0)) (j 1) := by
  funext d; apply Fin.ext
  match d with
  | ⟨0, _⟩ => show win0_16.index t (0 : Fin 2) * 64 + 1 * (j 0).val = t.val * 64 + (j 0).val; rw [(idx16 t).1]; omega
  | ⟨1, _⟩ => show win0_16.index t (1 : Fin 2) * 2048 + 1 * (j 1).val = (j 1).val; rw [(idx16 t).2]; omega

/-! The input windows' blocks at point `t`, read off the arguments. -/

theorem blk0 (c : Dev nD) (t : Fin cfg0.N) (j : S64x2048.Idx) :
    iblk m c 0 t j = m ((c : Thread nD τ).loc main_arg0) (ix2 (rowAt t (j 0)) (j 1)) := by
  show V m c main_arg0 (((cfg0.win 0).blk t).view.emb j) = _
  rw [emb0, V_main_arg0]; rfl
theorem blk1 (c : Dev nD) (t : Fin cfg0.N) (j : S64x2048.Idx) :
    iblk m c 1 t j = m ((c : Thread nD τ).loc main_arg1) (ix2 (rowAt t (j 0)) (j 1)) := by
  show V m c main_arg1 (((cfg0.win 1).blk t).view.emb j) = _
  rw [emb1, V_main_arg1]; rfl
theorem blk2 (c : Dev nD) (t : Fin cfg0.N) (j : S64x2048.Idx) :
    iblk m c 2 t j = m ((c : Thread nD τ).loc main_arg2) (ix2 (rowAt t (j 0)) (j 1)) := by
  show V m c main_arg2 (((cfg0.win 2).blk t).view.emb j) = _
  rw [emb2, V_main_arg2]; rfl
theorem blk3 (c : Dev nD) (t : Fin cfg0.N) (j : S64x2048.Idx) :
    iblk m c 3 t j = m ((c : Thread nD τ).loc main_arg3) (ix2 (rowAt t (j 0)) (j 1)) := by
  show V m c main_arg3 (((cfg0.win 3).blk t).view.emb j) = _
  rw [emb3, V_main_arg3]; rfl
theorem blk4 (c : Dev nD) (t : Fin cfg0.N) (j : S64x512.Idx) :
    iblk m c 4 t j = m ((c : Thread nD τ).loc main_arg4) (ix2 (rowAt t (j 0)) (j 1)) := by
  show V m c main_arg4 (((cfg0.win 4).blk t).view.emb j) = _
  rw [emb4, V_main_arg4]; rfl
theorem blk5 (c : Dev nD) (t : Fin cfg0.N) (j : S64x2048.Idx) :
    iblk m c 5 t j = m ((c : Thread nD τ).loc main_arg5) (ix2 (rowAt t (j 0)) (j 1)) := by
  show V m c main_arg5 (((cfg0.win 5).blk t).view.emb j) = _
  rw [emb5, V_main_arg5]; rfl
theorem blk6 (c : Dev nD) (t : Fin cfg0.N) (j : S64x2048.Idx) :
    iblk m c 6 t j = m ((c : Thread nD τ).loc main_arg6) (ix2 (rowAt t (j 0)) (j 1)) := by
  show V m c main_arg6 (((cfg0.win 6).blk t).view.emb j) = _
  rw [emb6, V_main_arg6]; rfl
theorem blk7 (c : Dev nD) (t : Fin cfg0.N) (j : S2048x2048.Idx) :
    iblk m c 7 t j = m ((c : Thread nD τ).loc main_arg7) j := by
  show V m c main_v0 (((cfg0.win 7).blk t).view.emb j) = _
  rw [emb7, V_main_v0]
theorem blk8 (c : Dev nD) (t : Fin cfg0.N) (j : S2048x2048.Idx) :
    iblk m c 8 t j = m ((c : Thread nD τ).loc main_arg8) j := by
  show V m c main_v1 (((cfg0.win 8).blk t).view.emb j) = _
  rw [emb8, V_main_v1]
theorem blk9 (c : Dev nD) (t : Fin cfg0.N) (j : S2048x512.Idx) :
    iblk m c 9 t j = m ((c : Thread nD τ).loc main_arg9) j := by
  show V m c main_v2 (((cfg0.win 9).blk t).view.emb j) = _
  rw [emb9, V_main_v2]

/-! ## The seven results as functions of the arguments -/

abbrev aX (c : Dev nD) : Arr 1024 2048 := m ((c : Thread nD τ).loc main_arg0)
abbrev aV (c : Dev nD) : Arr 1024 2048 := m ((c : Thread nD τ).loc main_arg1)
abbrev aZ (c : Dev nD) : Arr 1024 2048 := m ((c : Thread nD τ).loc main_arg2)
abbrev aR (c : Dev nD) : Arr 1024 2048 := m ((c : Thread nD τ).loc main_arg3)
abbrev aO (c : Dev nD) : Arr 1024 512 := m ((c : Thread nD τ).loc main_arg4)
abbrev aTin (c : Dev nD) : Arr 1024 2048 := m ((c : Thread nD τ).loc main_arg5)
abbrev aTrec (c : Dev nD) : Arr 1024 2048 := m ((c : Thread nD τ).loc main_arg6)
abbrev aWin (c : Dev nD) : Arr 2048 2048 := m ((c : Thread nD τ).loc main_arg7)
abbrev aWrec (c : Dev nD) : Arr 2048 2048 := m ((c : Thread nD τ).loc main_arg8)
abbrev aWout (c : Dev nD) : Arr 2048 512 := m ((c : Thread nD τ).loc main_arg9)

/-! ## What each point writes back is its block of the whole-array function -/

theorem flushed10_eq (c : Dev nD) (t : Fin cfg0.N) :
    (dats m 0 c).flushed 10 t = ((cfg0.win 10).blk t).view.read (Elt Ideal)
      (arrReadout (aX m c) (aV m c) (aZ m c) (aR m c) (aO m c) (aWin m c) (aWrec m c) (aWout m c)) := by
  rw [Value.flushed10]
  unfold out0_10
  rw [View.canon_unit_zero hz]
  simp only [View.ld_unit_zero (S := S64x2048) hz, View.ld_unit_zero (S := S64x512) hz, View.ld_unit_zero (S := S2048x2048) hz,
    View.ld_unit_zero (S := S2048x512) hz]
  funext j
  show k0_pay7 (F := Ideal) (iblk m c 4 t) (k0_pay3 (iblk m c 0 t) (iblk m c 1 t) (iblk m c 2 t) (iblk m c 7 t) (iblk m c 8 t))
      (k0_pay4 (iblk m c 3 t)) (Scalar.ofBits .f32 0x00000000#32) (iblk m c 9 t) j
    = arrReadout (aX m c) (aV m c) (aZ m c) (aR m c) (aO m c) (aWin m c) (aWrec m c) (aWout m c) (((cfg0.win 10).blk t).view.emb j)
  rw [emb10]
  exact block_readout (iblk m c 0 t) (iblk m c 1 t) (iblk m c 2 t) (iblk m c 3 t) (iblk m c 4 t) (iblk m c 7 t) (iblk m c 8 t)
    (iblk m c 9 t) (aX m c) (aV m c) (aZ m c) (aR m c) (aO m c) (aWin m c) (aWrec m c) (aWout m c) (rowAt t)
    (blk0 m c t) (blk1 m c t) (blk2 m c t) (blk3 m c t) (blk4 m c t) (blk7 m c t) (blk8 m c t) (blk9 m c t) j

theorem flushed11_eq (c : Dev nD) (t : Fin cfg0.N) :
    (dats m 0 c).flushed 11 t = ((cfg0.win 11).blk t).view.read (Elt Ideal)
      (arrSpikes (aX m c) (aV m c) (aZ m c) (aR m c) (aWin m c) (aWrec m c)) := by
  rw [Value.flushed11]
  unfold out0_11
  rw [View.canon_unit_zero hz]
  simp only [View.ld_unit_zero (S := S64x2048) hz, View.ld_unit_zero (S := S2048x2048) hz]
  funext j
  show k0_pay5 (F := Ideal) (k0_pay3 (iblk m c 0 t) (iblk m c 1 t) (iblk m c 2 t) (iblk m c 7 t) (iblk m c 8 t))
      (k0_pay4 (iblk m c 3 t)) (Scalar.ofBits .f32 0x00000000#32) j
    = arrSpikes (aX m c) (aV m c) (aZ m c) (aR m c) (aWin m c) (aWrec m c) (((cfg0.win 11).blk t).view.emb j)
  rw [emb11]
  exact block_spikes (iblk m c 0 t) (iblk m c 1 t) (iblk m c 2 t) (iblk m c 3 t) (iblk m c 7 t) (iblk m c 8 t)
    (aX m c) (aV m c) (aZ m c) (aR m c) (aWin m c) (aWrec m c) (rowAt t)
    (blk0 m c t) (blk1 m c t) (blk2 m c t) (blk3 m c t) (blk7 m c t) (blk8 m c t) j

theorem flushed12_eq (c : Dev nD) (t : Fin cfg0.N) :
    (dats m 0 c).flushed 12 t = ((cfg0.win 12).blk t).view.read (Elt Ideal)
      (arrMembrane (aX m c) (aV m c) (aZ m c) (aWin m c) (aWrec m c)) := by
  rw [Value.flushed12]
  unfold out0_12
  rw [View.canon_unit_zero hz]
  simp only [View.ld_unit_zero (S := S64x2048) hz, View.ld_unit_zero (S := S2048x2048) hz]
  funext j
  show k0_pay1 (F := Ideal) (iblk m c 0 t) (iblk m c 1 t) (iblk m c 2 t) (iblk m c 7 t) (iblk m c 8 t) j
    = arrMembrane (aX m c) (aV m c) (aZ m c) (aWin m c) (aWrec m c) (((cfg0.win 12).blk t).view.emb j)
  rw [emb12]
  exact block_membrane (iblk m c 0 t) (iblk m c 1 t) (iblk m c 2 t) (iblk m c 7 t) (iblk m c 8 t)
    (aX m c) (aV m c) (aZ m c) (aWin m c) (aWrec m c) (rowAt t)
    (blk0 m c t) (blk1 m c t) (blk2 m c t) (blk7 m c t) (blk8 m c t) j

theorem flushed13_eq (c : Dev nD) (t : Fin cfg0.N) :
    (dats m 0 c).flushed 13 t = ((cfg0.win 13).blk t).view.read (Elt Ideal)
      (arrCounter (aX m c) (aV m c) (aZ m c) (aR m c) (aWin m c) (aWrec m c)) := by
  rw [Value.flushed13]
  unfold out0_13
  rw [View.canon_unit_zero hz]
  simp only [View.ld_unit_zero (S := S64x2048) hz, View.ld_unit_zero (S := S2048x2048) hz]
  funext j
  show k0_pay6 (F := Ideal) (iblk m c 3 t) (k0_pay3 (iblk m c 0 t) (iblk m c 1 t) (iblk m c 2 t) (iblk m c 7 t) (iblk m c 8 t))
      (k0_pay4 (iblk m c 3 t)) (Scalar.ofBits .f32 0x00000000#32) j
    = arrCounter (aX m c) (aV m c) (aZ m c) (aR m c) (aWin m c) (aWrec m c) (((cfg0.win 13).blk t).view.emb j)
  rw [emb13]
  exact block_counter (iblk m c 0 t) (iblk m c 1 t) (iblk m c 2 t) (iblk m c 3 t) (iblk m c 7 t) (iblk m c 8 t)
    (aX m c) (aV m c) (aZ m c) (aR m c) (aWin m c) (aWrec m c) (rowAt t)
    (blk0 m c t) (blk1 m c t) (blk2 m c t) (blk3 m c t) (blk7 m c t) (blk8 m c t) j

theorem flushed14_eq (c : Dev nD) (t : Fin cfg0.N) :
    (dats m 0 c).flushed 14 t = ((cfg0.win 14).blk t).view.read (Elt Ideal) (arrTrace (aTin m c) (aX m c)) := by
  rw [Value.flushed14]
  unfold out0_14
  rw [View.canon_unit_zero hz]
  simp only [View.ld_unit_zero (S := S64x2048) hz]
  funext j
  show k0_pay9 (F := Ideal) (iblk m c 0 t) (iblk m c 5 t) j
    = arrTrace (aTin m c) (aX m c) (((cfg0.win 14).blk t).view.emb j)
  rw [emb14]
  exact block_trace_in (iblk m c 0 t) (iblk m c 5 t) (aX m c) (aTin m c) (rowAt t) (blk0 m c t) (blk5 m c t) j

theorem flushed15_eq (c : Dev nD) (t : Fin cfg0.N) :
    (dats m 0 c).flushed 15 t = ((cfg0.win 15).blk t).view.read (Elt Ideal) (arrTrace (aTrec m c) (aZ m c)) := by
  rw [Value.flushed15]
  unfold out0_15
  rw [View.canon_unit_zero hz]
  simp only [View.ld_unit_zero (S := S64x2048) hz]
  funext j
  show k0_pay10 (F := Ideal) (iblk m c 2 t) (iblk m c 6 t) j
    = arrTrace (aTrec m c) (aZ m c) (((cfg0.win 15).blk t).view.emb j)
  rw [emb15]
  exact block_trace_rec (iblk m c 2 t) (iblk m c 6 t) (aZ m c) (aTrec m c) (rowAt t) (blk2 m c t) (blk6 m c t) j

theorem flushed16_eq (c : Dev nD) (t : Fin cfg0.N) :
    (dats m 0 c).flushed 16 t = ((cfg0.win 16).blk t).view.read (Elt Ideal)
      (arrSurrogate (aX m c) (aV m c) (aZ m c) (aR m c) (aWin m c) (aWrec m c)) := by
  rw [Value.flushed16]
  unfold out0_16
  rw [View.canon_unit_zero hz]
  simp only [View.ld_unit_zero (S := S64x2048) hz, View.ld_unit_zero (S := S2048x2048) hz]
  funext j
  show k0_pay8 (F := Ideal) (k0_pay2 (iblk m c 0 t) (iblk m c 1 t) (iblk m c 2 t) (iblk m c 7 t) (iblk m c 8 t))
      (k0_pay4 (iblk m c 3 t)) j
    = arrSurrogate (aX m c) (aV m c) (aZ m c) (aR m c) (aWin m c) (aWrec m c) (((cfg0.win 16).blk t).view.emb j)
  rw [emb16]
  exact block_surrogate (iblk m c 0 t) (iblk m c 1 t) (iblk m c 2 t) (iblk m c 3 t) (iblk m c 7 t) (iblk m c 8 t)
    (aX m c) (aV m c) (aZ m c) (aR m c) (aWin m c) (aWrec m c) (rowAt t)
    (blk0 m c t) (blk1 m c t) (blk2 m c t) (blk3 m c t) (blk7 m c t) (blk8 m c t) j

end Cert.Lif.Blocks

end
-- ==== Proof.Arrays.lean ====
/-
  The sixteen blocks cover each result array, so each result array ends holding the whole-batch function whose
  blocks the points wrote (Blocks.lean): the kernel's run, with its seven results named as functions of the arguments.

  A row `i` of the batch lies in the block of point `i / 64`; the columns are not cut.
-/
import proofs.«180124_j12575664243445_1_alg».proof.Proof.Blocks

noncomputable section

namespace Cert.Lif.Blocks

open Cert.KernelIdeal Cert.KernelIdeal.Gen Cert.KernelIdeal.Value Cert.Lif Cert.Lif.Ker
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## An index of a result array is in point `t`'s block iff each coordinate is in the block's range on its axis -/

theorem mem_blk10 (t : Fin cfg0.N) (i : S1024x512.Idx) :
    i ∈ ((cfg0.win 10).blk t).view.set ↔ ∀ a : Fin 2, win0_10.index t a * S64x512.size a ≤ (i a).val ∧ (i a).val < win0_10.index t a * S64x512.size a + S64x512.size a := by
  show i ∈ ((View.whole main_v3_0).slice (win0_10.rect t)).set ↔ _
  rw [View.set_slice_whole, Rect.mem_set_unit]
  exact Iff.rfl
theorem mem_blk11 (t : Fin cfg0.N) (i : S1024x2048.Idx) :
    i ∈ ((cfg0.win 11).blk t).view.set ↔ ∀ a : Fin 2, win0_11.index t a * S64x2048.size a ≤ (i a).val ∧ (i a).val < win0_11.index t a * S64x2048.size a + S64x2048.size a := by
  show i ∈ ((View.whole main_v3_1).slice (win0_11.rect t)).set ↔ _
  rw [View.set_slice_whole, Rect.mem_set_unit]
  exact Iff.rfl
theorem mem_blk12 (t : Fin cfg0.N) (i : S1024x2048.Idx) :
    i ∈ ((cfg0.win 12).blk t).view.set ↔ ∀ a : Fin 2, win0_12.index t a * S64x2048.size a ≤ (i a).val ∧ (i a).val < win0_12.index t a * S64x2048.size a + S64x2048.size a := by
  show i ∈ ((View.whole main_v3_2).slice (win0_12.rect t)).set ↔ _
  rw [View.set_slice_whole, Rect.mem_set_unit]
  exact Iff.rfl
theorem mem_blk13 (t : Fin cfg0.N) (i : S1024x2048.Idx) :
    i ∈ ((cfg0.win 13).blk t).view.set ↔ ∀ a : Fin 2, win0_13.index t a * S64x2048.size a ≤ (i a).val ∧ (i a).val < win0_13.index t a * S64x2048.size a + S64x2048.size a := by
  show i ∈ ((View.whole main_v3_3).slice (win0_13.rect t)).set ↔ _
  rw [View.set_slice_whole, Rect.mem_set_unit]
  exact Iff.rfl
theorem mem_blk14 (t : Fin cfg0.N) (i : S1024x2048.Idx) :
    i ∈ ((cfg0.win 14).blk t).view.set ↔ ∀ a : Fin 2, win0_14.index t a * S64x2048.size a ≤ (i a).val ∧ (i a).val < win0_14.index t a * S64x2048.size a + S64x2048.size a := by
  show i ∈ ((View.whole main_v3_4).slice (win0_14.rect t)).set ↔ _
  rw [View.set_slice_whole, Rect.mem_set_unit]
  exact Iff.rfl
theorem mem_blk15 (t : Fin cfg0.N) (i : S1024x2048.Idx) :
    i ∈ ((cfg0.win 15).blk t).view.set ↔ ∀ a : Fin 2, win0_15.index t a * S64x2048.size a ≤ (i a).val ∧ (i a).val < win0_15.index t a * S64x2048.size a + S64x2048.size a := by
  show i ∈ ((View.whole main_v3_5).slice (win0_15.rect t)).set ↔ _
  rw [View.set_slice_whole, Rect.mem_set_unit]
  exact Iff.rfl
theorem mem_blk16 (t : Fin cfg0.N) (i : S1024x2048.Idx) :
    i ∈ ((cfg0.win 16).blk t).view.set ↔ ∀ a : Fin 2, win0_16.index t a * S64x2048.size a ≤ (i a).val ∧ (i a).val < win0_16.index t a * S64x2048.size a + S64x2048.size a := by
  show i ∈ ((View.whole main_v3_6).slice (win0_16.rect t)).set ↔ _
  rw [View.set_slice_whole, Rect.mem_set_unit]
  exact Iff.rfl

/-! ## Every index is in the block of the point its row falls in -/

/-- The point whose block holds row `a`. -/
theorem point_lt (a : Nat) (h : a < 1024) : a / 64 < cfg0.N := lt_of_lt_of_eq (by omega) N_0.symm

theorem cover10 (i : S1024x512.Idx) : ∃ t : Fin cfg0.N, (cfg0.win 10).flush t = true ∧ i ∈ ((cfg0.win 10).blk t).view.set := by
  have hi0 : (i 0).val < 1024 := (i 0).isLt
  have hi1 : (i 1).val < 512 := (i 1).isLt
  obtain ⟨e0, e1⟩ := idx10 ⟨(i 0).val / 64, point_lt _ hi0⟩
  refine ⟨⟨(i 0).val / 64, point_lt _ hi0⟩, flush0_10 _, ?_⟩
  rw [mem_blk10]
  intro a
  match a with
  | ⟨0, _⟩ =>
    show win0_10.index ⟨(i 0).val / 64, point_lt _ hi0⟩ (0 : Fin 2) * 64 ≤ (i 0).val ∧ (i 0).val < win0_10.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_10.index ⟨(i 0).val / 64, point_lt _ hi0⟩ (1 : Fin 2) * 512 ≤ (i 1).val ∧ (i 1).val < win0_10.index ⟨(i 0).val / 64, point_lt _ hi0⟩ (1 : Fin 2) * 512 + 512
    rw [e1]; omega

theorem cover11 (i : S1024x2048.Idx) : ∃ t : Fin cfg0.N, (cfg0.win 11).flush t = true ∧ i ∈ ((cfg0.win 11).blk t).view.set := by
  have hi0 : (i 0).val < 1024 := (i 0).isLt
  have hi1 : (i 1).val < 2048 := (i 1).isLt
  obtain ⟨e0, e1⟩ := idx11 ⟨(i 0).val / 64, point_lt _ hi0⟩
  refine ⟨⟨(i 0).val / 64, point_lt _ hi0⟩, flush0_11 _, ?_⟩
  rw [mem_blk11]
  intro a
  match a with
  | ⟨0, _⟩ =>
    show win0_11.index ⟨(i 0).val / 64, point_lt _ hi0⟩ (0 : Fin 2) * 64 ≤ (i 0).val ∧ (i 0).val < win0_11.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_11.index ⟨(i 0).val / 64, point_lt _ hi0⟩ (1 : Fin 2) * 2048 ≤ (i 1).val ∧ (i 1).val < win0_11.index ⟨(i 0).val / 64, point_lt _ hi0⟩ (1 : Fin 2) * 2048 + 2048
    rw [e1]; omega

theorem cover12 (i : S1024x2048.Idx) : ∃ t : Fin cfg0.N, (cfg0.win 12).flush t = true ∧ i ∈ ((cfg0.win 12).blk t).view.set := by
  have hi0 : (i 0).val < 1024 := (i 0).isLt
  have hi1 : (i 1).val < 2048 := (i 1).isLt
  obtain ⟨e0, e1⟩ := idx12 ⟨(i 0).val / 64, point_lt _ hi0⟩
  refine ⟨⟨(i 0).val / 64, point_lt _ hi0⟩, flush0_12 _, ?_⟩
  rw [mem_blk12]
  intro a
  match a with
  | ⟨0, _⟩ =>
    show win0_12.index ⟨(i 0).val / 64, point_lt _ hi0⟩ (0 : Fin 2) * 64 ≤ (i 0).val ∧ (i 0).val < win0_12.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_12.index ⟨(i 0).val / 64, point_lt _ hi0⟩ (1 : Fin 2) * 2048 ≤ (i 1).val ∧ (i 1).val < win0_12.index ⟨(i 0).val / 64, point_lt _ hi0⟩ (1 : Fin 2) * 2048 + 2048
    rw [e1]; omega

theorem cover13 (i : S1024x2048.Idx) : ∃ t : Fin cfg0.N, (cfg0.win 13).flush t = true ∧ i ∈ ((cfg0.win 13).blk t).view.set := by
  have hi0 : (i 0).val < 1024 := (i 0).isLt
  have hi1 : (i 1).val < 2048 := (i 1).isLt
  obtain ⟨e0, e1⟩ := idx13 ⟨(i 0).val / 64, point_lt _ hi0⟩
  refine ⟨⟨(i 0).val / 64, point_lt _ hi0⟩, flush0_13 _, ?_⟩
  rw [mem_blk13]
  intro a
  match a with
  | ⟨0, _⟩ =>
    show win0_13.index ⟨(i 0).val / 64, point_lt _ hi0⟩ (0 : Fin 2) * 64 ≤ (i 0).val ∧ (i 0).val < win0_13.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_13.index ⟨(i 0).val / 64, point_lt _ hi0⟩ (1 : Fin 2) * 2048 ≤ (i 1).val ∧ (i 1).val < win0_13.index ⟨(i 0).val / 64, point_lt _ hi0⟩ (1 : Fin 2) * 2048 + 2048
    rw [e1]; omega

theorem cover14 (i : S1024x2048.Idx) : ∃ t : Fin cfg0.N, (cfg0.win 14).flush t = true ∧ i ∈ ((cfg0.win 14).blk t).view.set := by
  have hi0 : (i 0).val < 1024 := (i 0).isLt
  have hi1 : (i 1).val < 2048 := (i 1).isLt
  obtain ⟨e0, e1⟩ := idx14 ⟨(i 0).val / 64, point_lt _ hi0⟩
  refine ⟨⟨(i 0).val / 64, point_lt _ hi0⟩, flush0_14 _, ?_⟩
  rw [mem_blk14]
  intro a
  match a with
  | ⟨0, _⟩ =>
    show win0_14.index ⟨(i 0).val / 64, point_lt _ hi0⟩ (0 : Fin 2) * 64 ≤ (i 0).val ∧ (i 0).val < win0_14.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_14.index ⟨(i 0).val / 64, point_lt _ hi0⟩ (1 : Fin 2) * 2048 ≤ (i 1).val ∧ (i 1).val < win0_14.index ⟨(i 0).val / 64, point_lt _ hi0⟩ (1 : Fin 2) * 2048 + 2048
    rw [e1]; omega

theorem cover15 (i : S1024x2048.Idx) : ∃ t : Fin cfg0.N, (cfg0.win 15).flush t = true ∧ i ∈ ((cfg0.win 15).blk t).view.set := by
  have hi0 : (i 0).val < 1024 := (i 0).isLt
  have hi1 : (i 1).val < 2048 := (i 1).isLt
  obtain ⟨e0, e1⟩ := idx15 ⟨(i 0).val / 64, point_lt _ hi0⟩
  refine ⟨⟨(i 0).val / 64, point_lt _ hi0⟩, flush0_15 _, ?_⟩
  rw [mem_blk15]
  intro a
  match a with
  | ⟨0, _⟩ =>
    show win0_15.index ⟨(i 0).val / 64, point_lt _ hi0⟩ (0 : Fin 2) * 64 ≤ (i 0).val ∧ (i 0).val < win0_15.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_15.index ⟨(i 0).val / 64, point_lt _ hi0⟩ (1 : Fin 2) * 2048 ≤ (i 1).val ∧ (i 1).val < win0_15.index ⟨(i 0).val / 64, point_lt _ hi0⟩ (1 : Fin 2) * 2048 + 2048
    rw [e1]; omega

theorem cover16 (i : S1024x2048.Idx) : ∃ t : Fin cfg0.N, (cfg0.win 16).flush t = true ∧ i ∈ ((cfg0.win 16).blk t).view.set := by
  have hi0 : (i 0).val < 1024 := (i 0).isLt
  have hi1 : (i 1).val < 2048 := (i 1).isLt
  obtain ⟨e0, e1⟩ := idx16 ⟨(i 0).val / 64, point_lt _ hi0⟩
  refine ⟨⟨(i 0).val / 64, point_lt _ hi0⟩, flush0_16 _, ?_⟩
  rw [mem_blk16]
  intro a
  match a with
  | ⟨0, _⟩ =>
    show win0_16.index ⟨(i 0).val / 64, point_lt _ hi0⟩ (0 : Fin 2) * 64 ≤ (i 0).val ∧ (i 0).val < win0_16.index ⟨(i 0).val / 64, point_lt _ hi0⟩ (0 : Fin 2) * 64 + 64
    rw [e0]; show (i 0).val / 64 * 64 ≤ (i 0).val ∧ (i 0).val < (i 0).val / 64 * 64 + 64; omega
  | ⟨1, _⟩ =>
    show win0_16.index ⟨(i 0).val / 64, point_lt _ hi0⟩ (1 : Fin 2) * 2048 ≤ (i 1).val ∧ (i 1).val < win0_16.index ⟨(i 0).val / 64, point_lt _ hi0⟩ (1 : Fin 2) * 2048 + 2048
    rw [e1]; omega

/-! ## The result arrays after the run -/

theorem final10 (c : Dev nD) : (dats m 0 c).arrAt 10 cfg0.N
    = arrReadout (aX m c) (aV m c) (aZ m c) (aR m c) (aO m c) (aWin m c) (aWrec m c) (aWout m c) :=
  (dats m 0 c).arrAt_eq_of_cover 10 _ (fun t _ => flushed10_eq m c t) cover10
theorem final11 (c : Dev nD) : (dats m 0 c).arrAt 11 cfg0.N
    = arrSpikes (aX m c) (aV m c) (aZ m c) (aR m c) (aWin m c) (aWrec m c) :=
  (dats m 0 c).arrAt_eq_of_cover 11 _ (fun t _ => flushed11_eq m c t) cover11
theorem final12 (c : Dev nD) : (dats m 0 c).arrAt 12 cfg0.N
    = arrMembrane (aX m c) (aV m c) (aZ m c) (aWin m c) (aWrec m c) :=
  (dats m 0 c).arrAt_eq_of_cover 12 _ (fun t _ => flushed12_eq m c t) cover12
theorem final13 (c : Dev nD) : (dats m 0 c).arrAt 13 cfg0.N
    = arrCounter (aX m c) (aV m c) (aZ m c) (aR m c) (aWin m c) (aWrec m c) :=
  (dats m 0 c).arrAt_eq_of_cover 13 _ (fun t _ => flushed13_eq m c t) cover13
theorem final14 (c : Dev nD) : (dats m 0 c).arrAt 14 cfg0.N = arrTrace (aTin m c) (aX m c) :=
  (dats m 0 c).arrAt_eq_of_cover 14 _ (fun t _ => flushed14_eq m c t) cover14
theorem final15 (c : Dev nD) : (dats m 0 c).arrAt 15 cfg0.N = arrTrace (aTrec m c) (aZ m c) :=
  (dats m 0 c).arrAt_eq_of_cover 15 _ (fun t _ => flushed15_eq m c t) cover15
theorem final16 (c : Dev nD) : (dats m 0 c).arrAt 16 cfg0.N
    = arrSurrogate (aX m c) (aV m c) (aZ m c) (aR m c) (aWin m c) (aWrec m c) :=
  (dats m 0 c).arrAt_eq_of_cover 16 _ (fun t _ => flushed16_eq m c t) cover16

/-! ## The run -/

/-- The kernel's run at the ideal values: every weakly fair execution ends with the seven result arrays at the layer's
    step of the arguments, and the arguments unchanged. -/
theorem run : θ_run defs (onTc (τ := τ) (main (F := Ideal))) ⟨m, fun _ => 0, ρ⟩ fun r => ∀ c : Dev nD,
      r.2.mem ((c : Thread nD τ).loc main_v3_0) = arrReadout (aX m c) (aV m c) (aZ m c) (aR m c) (aO m c) (aWin m c) (aWrec m c) (aWout m c)
      ∧ r.2.mem ((c : Thread nD τ).loc main_v3_1) = arrSpikes (aX m c) (aV m c) (aZ m c) (aR m c) (aWin m c) (aWrec m c)
      ∧ r.2.mem ((c : Thread nD τ).loc main_v3_2) = arrMembrane (aX m c) (aV m c) (aZ m c) (aWin m c) (aWrec m c)
      ∧ r.2.mem ((c : Thread nD τ).loc main_v3_3) = arrCounter (aX m c) (aV m c) (aZ m c) (aR m c) (aWin m c) (aWrec m c)
      ∧ r.2.mem ((c : Thread nD τ).loc main_v3_4) = arrTrace (aTin m c) (aX m c)
      ∧ r.2.mem ((c : Thread nD τ).loc main_v3_5) = arrTrace (aTrec m c) (aZ m c)
      ∧ r.2.mem ((c : Thread nD τ).loc main_v3_6) = arrSurrogate (aX m c) (aV m c) (aZ m c) (aR m c) (aWin m c) (aWrec m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c),
      (h c).2.1.trans (final11 m c),
      (h c).2.2.1.trans (final12 m c),
      (h c).2.2.2.1.trans (final13 m c),
      (h c).2.2.2.2.1.trans (final14 m c),
      (h c).2.2.2.2.2.1.trans (final15 m c),
      (h c).2.2.2.2.2.2.1.trans (final16 m c),
      (h c).2.2.2.2.2.2.2⟩)
    (Value.run_blocks m ρ)

end Cert.Lif.Blocks

end
-- ==== Proof.RefStages.lean ====
/-
  The reference program, stage by stage, is the layer's step of Spec.lean on the whole batch of 1024 rows.

  Each lemma reads one stage of the reference's run at the entry (p, q) and finds the specification's formula
  there: the two `dot_general`s are the two sums of the synaptic current (the contracted index renamed to
  `Fin 2048`), a scalar literal broadcast to the array is that literal at every entry, the 0/1 conversion of the
  comparison bit is `bit01`, `clip` is `min 5 (max 0 ·)`, and the readout's weights are multiplied by the
  literal one, which changes nothing.
-/
import proofs.«180124_j12575664243445_1_alg».proof.Proof.Gen.ReferenceIdeal.Read
import proofs.«180124_j12575664243445_1_alg».proof.Proof.Spec

noncomputable section

namespace Cert.Lif.Ref

open Cert.ReferenceIdeal Cert.ReferenceIdeal.Read Cert.Lif
open Idealize.ShloMosaic Idealize.ShloMosaic.ValueIdx
open scoped BigOperators

variable (X V Z R : S1024x2048.Idx → EReal) (O : S1024x512.Idx → EReal)
variable (Win Wrec : S2048x2048.Idx → EReal) (Wout : S2048x512.Idx → EReal)

/-! ## The operand entries of the three products -/

theorem lidx0 (p : Fin 1024) (q k : Fin 2048) : lidx_main_v0 (ix2 p q) k = ix2 p k :=
  funext fun a => by match a with | ⟨0, _⟩ => rfl | ⟨1, _⟩ => rfl
theorem ridx0 (p : Fin 1024) (q k : Fin 2048) : ridx_main_v0 (ix2 p q) k = ix2 k q :=
  funext fun a => by match a with | ⟨0, _⟩ => rfl | ⟨1, _⟩ => rfl
theorem lidx1 (p : Fin 1024) (q k : Fin 2048) : lidx_main_v1 (ix2 p q) k = ix2 p k :=
  funext fun a => by match a with | ⟨0, _⟩ => rfl | ⟨1, _⟩ => rfl
theorem ridx1 (p : Fin 1024) (q k : Fin 2048) : ridx_main_v1 (ix2 p q) k = ix2 k q :=
  funext fun a => by match a with | ⟨0, _⟩ => rfl | ⟨1, _⟩ => rfl
theorem lidx29 (p : Fin 1024) (q : Fin 512) (k : Fin 2048) : lidx_main_v29 (ix2 p q) k = ix2 p k :=
  funext fun a => by match a with | ⟨0, _⟩ => rfl | ⟨1, _⟩ => rfl
theorem ridx29 (p : Fin 1024) (q : Fin 512) (k : Fin 2048) : ridx_main_v29 (ix2 p q) k = ix2 k q :=
  funext fun a => by match a with | ⟨0, _⟩ => rfl | ⟨1, _⟩ => rfl

/-! ## The stages -/

/-- The new membrane potential. -/
theorem ref_membrane (p : Fin 1024) (q : Fin 2048) :
    val_main_v8 (F := Ideal) X V Z Win Wrec (ix2 p q) = membrane (cur X) (cur V) (cur Z) (cur Win) (cur Wrec) p q := by
  rw [val_main_v8_apply, val_main_v5_apply, val_main_v4_apply, val_main_v3_apply, val_main_cst_apply, val_main_v2_apply,
    val_main_v0_apply, val_main_v1_apply, val_main_v7_apply, val_main_v6_apply, val_main_cst_0_apply]
  simp only [lidx0, ridx0, lidx1, ridx1]
  rfl

/-- The scaled potential. -/
theorem ref_scaled (p : Fin 1024) (q : Fin 2048) :
    val_main_v12 (F := Ideal) X V Z Win Wrec (ix2 p q) = scaled (cur X) (cur V) (cur Z) (cur Win) (cur Wrec) p q := by
  rw [val_main_v12_apply, val_main_v10_apply, ref_membrane, val_main_v9_apply, val_main_cst_1_apply, val_main_v11_apply,
    val_main_cst_2_apply]
  rfl

/-- The new spikes. -/
theorem ref_spikes (p : Fin 1024) (q : Fin 2048) :
    val_main_v18 (F := Ideal) X V Z R Win Wrec (ix2 p q) = spikes (cur X) (cur V) (cur Z) (cur R) (cur Win) (cur Wrec) p q := by
  rw [val_main_v18_apply, val_main_v17_apply, val_main_v16_apply, val_main_cst_4_apply, val_main_call0_v1_apply,
    val_main_call0_v0_apply, val_main_cst_5_apply, val_main_v15_apply, val_main_v14_apply, ref_scaled, val_main_v13_apply,
    val_main_cst_3_apply]
  rfl

/-- The new refractory counter. -/
theorem ref_counter (p : Fin 1024) (q : Fin 2048) :
    val_main_v24 (F := Ideal) X V Z R Win Wrec (ix2 p q) = counter (cur X) (cur V) (cur Z) (cur R) (cur Win) (cur Wrec) p q := by
  rw [val_main_v24_apply, val_main_call1_v4_apply, val_main_call1_v3_apply, val_main_cst_9_apply, val_main_call1_v2_apply,
    val_main_call1_v1_apply, val_main_call1_v0_apply, val_main_cst_8_apply, val_main_v23_apply, val_main_v21_apply,
    val_main_v20_apply, val_main_v19_apply, val_main_cst_6_apply, ref_spikes, val_main_v22_apply, val_main_cst_7_apply]
  rfl

/-- The readout's weights, multiplied by the literal one, are the weights. -/
theorem ref_wout (k : Fin 2048) (q : Fin 512) : val_main_v28 (F := Ideal) Wout (ix2 k q) = Wout (ix2 k q) := by
  rw [val_main_v28_apply, val_main_v27_apply, val_main_cst_11_apply]
  show Wout (ix2 k q) * cOne = _
  rw [cOne_eq, mul_one]

/-- The filtered readout. -/
theorem ref_readout (p : Fin 1024) (q : Fin 512) :
    val_main_v30 (F := Ideal) X V Z R O Win Wrec Wout (ix2 p q)
      = readout (cur X) (cur V) (cur Z) (cur R) (cur O) (cur Win) (cur Wrec) (cur Wout) p q := by
  rw [val_main_v30_apply, val_main_v26_apply, val_main_v25_apply, val_main_cst_10_apply, val_main_v29_apply]
  simp only [lidx29, ridx29, ref_spikes, ref_wout]
  rfl

/-- The surrogate derivative. -/
theorem ref_surrogate (p : Fin 1024) (q : Fin 2048) :
    val_main_v42 (F := Ideal) X V Z R Win Wrec (ix2 p q) = surrogate (cur X) (cur V) (cur Z) (cur R) (cur Win) (cur Wrec) p q := by
  rw [val_main_v42_apply, val_main_v41_apply, val_main_v40_apply, val_main_cst_16_apply, val_main_call2_v1_apply,
    val_main_call2_v0_apply, val_main_cst_17_apply, val_main_v39_apply, val_main_v37_apply, val_main_v35_apply,
    val_main_v34_apply, val_main_cst_13_apply, val_main_v33_apply, val_main_v32_apply, val_main_cst_12_apply,
    val_main_v31_apply, ref_scaled, val_main_v36_apply, val_main_cst_14_apply, val_main_v38_apply, val_main_cst_15_apply]
  rfl

/-- The input trace. -/
theorem ref_trace_in (T : S1024x2048.Idx → EReal) (p : Fin 1024) (q : Fin 2048) :
    val_main_v45 (F := Ideal) X T (ix2 p q) = trace (cur T) (cur X) p q := by
  rw [val_main_v45_apply, val_main_v44_apply, val_main_v43_apply, val_main_cst_18_apply]
  rfl

/-- The recurrent trace. -/
theorem ref_trace_rec (T : S1024x2048.Idx → EReal) (p : Fin 1024) (q : Fin 2048) :
    val_main_v48 (F := Ideal) Z T (ix2 p q) = trace (cur T) (cur Z) p q := by
  rw [val_main_v48_apply, val_main_v47_apply, val_main_v46_apply, val_main_cst_19_apply]
  rfl

/-! ## The seven results as whole arrays -/

theorem ref_arr_membrane : val_main_v8 (F := Ideal) X V Z Win Wrec = arrMembrane X V Z Win Wrec := by
  funext i
  obtain ⟨p, q, rfl⟩ : ∃ p q, i = ix2 p q := ⟨i 0, i 1, eq_ix2 i⟩
  exact ref_membrane X V Z Win Wrec p q

theorem ref_arr_spikes : val_main_v18 (F := Ideal) X V Z R Win Wrec = arrSpikes X V Z R Win Wrec := by
  funext i
  obtain ⟨p, q, rfl⟩ : ∃ p q, i = ix2 p q := ⟨i 0, i 1, eq_ix2 i⟩
  exact ref_spikes X V Z R Win Wrec p q

theorem ref_arr_counter : val_main_v24 (F := Ideal) X V Z R Win Wrec = arrCounter X V Z R Win Wrec := by
  funext i
  obtain ⟨p, q, rfl⟩ : ∃ p q, i = ix2 p q := ⟨i 0, i 1, eq_ix2 i⟩
  exact ref_counter X V Z R Win Wrec p q

theorem ref_arr_readout : val_main_v30 (F := Ideal) X V Z R O Win Wrec Wout = arrReadout X V Z R O Win Wrec Wout := by
  funext i
  obtain ⟨p, q, rfl⟩ : ∃ p q, i = ix2 p q := ⟨i 0, i 1, eq_ix2 i⟩
  exact ref_readout X V Z R O Win Wrec Wout p q

theorem ref_arr_surrogate : val_main_v42 (F := Ideal) X V Z R Win Wrec = arrSurrogate X V Z R Win Wrec := by
  funext i
  obtain ⟨p, q, rfl⟩ : ∃ p q, i = ix2 p q := ⟨i 0, i 1, eq_ix2 i⟩
  exact ref_surrogate X V Z R Win Wrec p q

theorem ref_arr_trace_in (T : S1024x2048.Idx → EReal) : val_main_v45 (F := Ideal) X T = arrTrace T X := by
  funext i
  obtain ⟨p, q, rfl⟩ : ∃ p q, i = ix2 p q := ⟨i 0, i 1, eq_ix2 i⟩
  exact ref_trace_in X T p q

theorem ref_arr_trace_rec (T : S1024x2048.Idx → EReal) : val_main_v48 (F := Ideal) Z T = arrTrace T Z := by
  funext i
  obtain ⟨p, q, rfl⟩ : ∃ p q, i = ix2 p q := ⟨i 0, i 1, eq_ix2 i⟩
  exact ref_trace_rec Z T p q

end Cert.Lif.Ref

end
-- ==== Proof.lean ====
/- The proof of `Cert.Claim`: one step of a recurrent layer of leaky integrate-and-fire neurons with eligibility
   traces (synaptic current through two weight matrices, leaky integration with reset, thresholded spikes under a
   refractory mask, the refractory counter, the filtered readout through a third matrix, the surrogate derivative
   and the two traces), computed by a kernel in 16 blocks of 64 rows of the batch, against the same step written
   over the whole batch of 1024 rows.

   Over the extended reals the two programs compute the same seven arrays, operation for operation: every output at a
   row depends on that row of the state arrays and on the whole weight matrices, so the step on a block of rows is
   the block of rows of the step (Spec.lean, where the step is written once and this is a definitional fact); the
   kernel's products in bf16 and the reference's in f32 are the same sums, the conversions being the identity; the
   0/1 value of the spike comparison is read as a signed integer from a zero-extended bit on one side and as an
   unsigned bit on the other; and the literal one multiplies the readout's product on one side and its weights on
   the other. No law used needs finiteness: the precondition is not opened.

   KernelPay.lean reads the kernel body's stores at an entry of a block; Blocks.lean and Arrays.lean carry them
   from blocks to the whole result arrays; RefStages.lean reads the reference's run stage by stage. The three
   frames are the generated ones (the reference's is its generated run with the results dropped), and the
   idealization rewrote nothing, so `preserves` is trivial. -/
import proofs.«180124_j12575664243445_1_alg».proof.Defs
import proofs.«180124_j12575664243445_1_alg».proof.Proof.Gen.Kernel
import proofs.«180124_j12575664243445_1_alg».proof.Proof.Gen.Kernel.Skeleton
import proofs.«180124_j12575664243445_1_alg».proof.Proof.Gen.Kernel.Launch
import proofs.«180124_j12575664243445_1_alg».proof.Proof.Gen.Kernel.Points
import proofs.«180124_j12575664243445_1_alg».proof.Proof.Gen.Kernel.Frame
import proofs.«180124_j12575664243445_1_alg».proof.Proof.Gen.KernelIdeal
import proofs.«180124_j12575664243445_1_alg».proof.Proof.Gen.KernelIdeal.Skeleton
import proofs.«180124_j12575664243445_1_alg».proof.Proof.Gen.KernelIdeal.Launch
import proofs.«180124_j12575664243445_1_alg».proof.Proof.Gen.KernelIdeal.Points
import proofs.«180124_j12575664243445_1_alg».proof.Proof.Gen.KernelIdeal.Frame
import proofs.«180124_j12575664243445_1_alg».proof.Proof.Gen.ReferenceIdeal
import proofs.«180124_j12575664243445_1_alg».proof.Proof.Gen.Pre_finite_inputs
import proofs.«180124_j12575664243445_1_alg».proof.Proof.Gen.KernelIdeal.Value
import proofs.«180124_j12575664243445_1_alg».proof.Proof.Gen.ReferenceIdeal.Run
import proofs.«180124_j12575664243445_1_alg».proof.Proof.Gen.ReferenceIdeal.Read
import proofs.«180124_j12575664243445_1_alg».proof.Proof.Arrays
import proofs.«180124_j12575664243445_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the seven results dropped. -/
theorem frame_reference : Cert.frame_ReferenceIdeal := fun m ρ _ =>
  (θ_run Cert.ReferenceIdeal.defs _ _).mono (fun _ h c => (h c).2.2.2.2.2.2.2)
    (Cert.ReferenceIdeal.Value.run (F := Ideal) m ρ)

/-- The idealization rewrote no operation. -/
theorem preserves : Cert.preserves_Kernel_KernelIdeal := trivial

/-- Both programs end with the seven arrays of the layer's step of the (agreeing) arguments. -/
theorem algebraic : Cert.algebraic_KernelIdeal_ReferenceIdeal := by
  intro m ρ m' ρ' _ hagree
  refine ⟨_, _, _, _, _, _, _, Cert.Lif.Blocks.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  obtain ⟨r0, r1, r2, r3, r4, r5, r6, rest⟩ := h c
  refine ⟨r0.trans ?_, r1.trans ?_, r2.trans ?_, r3.trans ?_, r4.trans ?_, r5.trans ?_, r6.trans ?_, rest⟩
  · rw [Cert.ReferenceIdeal.Read.val_main_v30_eq, Cert.Lif.Ref.ref_arr_readout, e0, e1, e2, e3, e4, e7, e8, e9]
  · rw [Cert.ReferenceIdeal.Read.val_main_v18_eq, Cert.Lif.Ref.ref_arr_spikes, e0, e1, e2, e3, e7, e8]
  · rw [Cert.ReferenceIdeal.Read.val_main_v8_eq, Cert.Lif.Ref.ref_arr_membrane, e0, e1, e2, e7, e8]
  · rw [Cert.ReferenceIdeal.Read.val_main_v24_eq, Cert.Lif.Ref.ref_arr_counter, e0, e1, e2, e3, e7, e8]
  · rw [Cert.ReferenceIdeal.Read.val_main_v45_eq, Cert.Lif.Ref.ref_arr_trace_in, e0, e5]
  · rw [Cert.ReferenceIdeal.Read.val_main_v48_eq, Cert.Lif.Ref.ref_arr_trace_rec, e2, e6]
  · rw [Cert.ReferenceIdeal.Read.val_main_v42_eq, Cert.Lif.Ref.ref_arr_surrogate, e0, e1, e2, e3, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
